-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S256x128 : Shape := ⟨2, ![256, 128]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v28 : IVec S_ 1) (main_v32 : IVec S600000 1) (main_v34 : IVec S600000 32) : IVec S_ 1 :=
  let main_c_11 : IVec S_ 32 := constantI S_ 32 100000#32
  let main_v35 : IVec S600000 32 := broadcastInDim S600000 ![] bcast_S_S600000 main_c_11
  let main_v36 : IVec S600000 1 := cmpi .slt main_v34 main_v35
  let main_v37 : IVec S600000 1 := andi main_v32 main_v36
  let main_c_12 : IVec S_ 1 := constantI S_ 1 1#1
  let main_v38 : IVec S_ 1 := (fun x v => Host.reduce IntOp.andi x v reducesTo_S600000_S_d0 h_S_) main_v37 main_c_12
  let main_v39 : IVec S_ 1 := andi main_v28 main_v38
  main_v39

def fn_part1 {F : FTy → Type} [FloatOps F] (main_arg1 : IVec S2x600000 32) (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x600000 32 := (extractStridedSlice S1x600000 ![0, 0] · slices_S2x600000_S1x600000_0_0) main_arg1
  let main_v30 : IVec S600000 32 := shapeCast S600000 main_v29 shapeCasts_S1x600000_S600000
  let main_c_10 : IVec S_ 32 := constantI S_ 32 4294867296#32
  let main_v31 : IVec S600000 32 := broadcastInDim S600000 ![] bcast_S_S600000 main_c_10
  let main_v32 : IVec S600000 1 := cmpi .sge main_v30 main_v31
  let main_v33 : IVec S1x600000 32 := (extractStridedSlice S1x600000 ![0, 0] · slices_S2x600000_S1x600000_0_0) main_arg1
  let main_v34 : IVec S600000 32 := shapeCast S600000 main_v33 shapeCasts_S1x600000_S600000
  fn_part2 (F := F) main_v28 main_v32 main_v34

def fn {F : FTy → Type} [FloatOps F] (main_arg0 : FVec F S100000x128 .f32) (main_arg1 : IVec S2x600000 32) (main_arg2 : FVec F S600000x128 .f32) (main_arg3 : FVec F S384x128 .f32) (main_arg4 : FVec F S128 .f32) (main_arg5 : FVec F S256x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S128x128 : Shape := ⟨2, ![128, 128]⟩
abbrev S10000x128 : Shape := ⟨2, ![10000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 56
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S384x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S1, .i32⟩
  | .hbm, ⟨25, _⟩ => ⟨S_, .i32⟩
  | .hbm, ⟨26, _⟩ => ⟨S600000x1, .i32⟩
  | .hbm, ⟨27, _⟩ => ⟨S600000x1, .i1⟩
  | .hbm, ⟨28, _⟩ => ⟨S1x1, .i32⟩
  | .hbm, ⟨29, _⟩ => ⟨S600000x1, .i32⟩
  | .hbm, ⟨30, _⟩ => ⟨S600000x1, .i1⟩
  | .hbm, ⟨31, _⟩ => ⟨S600000x1, .i1⟩
  | .hbm, ⟨32, _⟩ => ⟨S_, .i1⟩
  | .hbm, ⟨33, _⟩ => ⟨S600000, .i1⟩
  | .hbm, ⟨34, _⟩ => ⟨S600000x128, .f32⟩
  | .hbm, ⟨35, _⟩ => ⟨S600000x128, .i1⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S100000x128, .f32⟩
  | .hbm, ⟨42, _⟩ => ⟨S600000x1, .i32⟩
  | .hbm, ⟨43, _⟩ => ⟨S100000x128, .f32⟩
  | .hbm, ⟨44, _⟩ => ⟨S_, .f32⟩
  | .hbm, ⟨45, _⟩ => ⟨S600000, .f32⟩
  | .hbm, ⟨46, _⟩ => ⟨S_, .f32⟩
  | .hbm, ⟨47, _⟩ => ⟨S100000, .f32⟩
  | .hbm, ⟨48, _⟩ => ⟨S600000x1, .i32⟩
  | .hbm, ⟨49, _⟩ => ⟨S100000, .f32⟩
  | .hbm, ⟨50, _⟩ => ⟨S100000x1, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg8_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S384x128_S128x128_0_0 : S384x128.Slices ![0, 0] S128x128
  slices_S384x128_S128x128_128_0 : S384x128.Slices ![128, 0] S128x128
  slices_S384x128_S128x128_256_0 : S384x128.Slices ![256, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S10000x128_S10000x128 : S10000x128.ShapeCasts S10000x128
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  dot_S10000x128_S128x128_S10000x128_1_0_0_1_n_n_wf : DotDims.WF S10000x128 S128x128 S10000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S600000x128.size a
  hwx1_0 : ∀ i : grid1.Coords, EltTy.bits .f32 = 32 ∨ (Rect.block (s := S600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S600000x128.size a
  hwx1_1 : ∀ i : grid1.Coords, EltTy.bits .f32 = 32 ∨ (Rect.block (s := S600000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S600000x128.size a
  hwx1_3 : ∀ i : grid1.Coords, EltTy.bits .f32 = 32 ∨ (Rect.block (s := S600000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7_1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S100000x256 : Shape := ⟨2, ![100000, 256]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S384x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x384, .f32⟩
  | .hbm, ⟨30, _⟩ => ⟨S600000x128, .f32⟩
  | .hbm, ⟨31, _⟩ => ⟨S1x128, .f32⟩
  | .hbm, ⟨32, _⟩ => ⟨S600000x128, .f32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S100000x256, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x384_S384x128_S600000x128_1_0_0_1_n_n_wf : DotDims.WF S600000x384 S384x128 S600000x128 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  One message-passing layer over a graph of 100000 nodes and 600000 edges, feature width 128, written twice
  as formulas of the seven argument arrays (node features `h`, the edge list `ei` — row 0 the senders, row 1 the
  receivers —, edge features `ea`, the message weights `Wm` (three 128-row bands: sender, receiver, edge) and
  bias `bm`, the update weights `Wu` (two bands: node, aggregate) and bias `bu`), at the extended reals.

  * `outR`: each edge's message is the affine map of (sender row, receiver row, edge row) stacked; a node's
    aggregate is the sum of the messages of the edges it receives; the result is the affine map of (node row,
    aggregate) stacked.
  * `outK`: the node features are projected once through the sender and the receiver bands (`Ps`, `Pr`); an
    edge contributes its projected sender row plus its edge band; the receiver band and the bias, which are the
    same for every edge into a node, come in as (number of edges received) times (the node's projected row, the
    bias).

  A row number read from the edge list is a signed 32-bit word. For a LOOK-UP of a row a negative word counts from
  the end (`wrap`) and the result is clamped into the table (`clampRow`); for the aggregation an edge is received by
  node `n` exactly when its receiver word, read signed, IS `n` (`inbox`), and by no node otherwise.
-/
import Idealize.ShloMosaic.Lib.ValueIdx
import Idealize.ShloMosaic.PureOps.Ideal

noncomputable section

open scoped BigOperators

namespace Cert.Spec

open Idealize.ShloMosaic Idealize.ShloMosaic.ValueIdx

abbrev SND : Shape := ⟨2, ![100000, 128]⟩
abbrev SED : Shape := ⟨2, ![600000, 128]⟩
abbrev S2E : Shape := ⟨2, ![2, 600000]⟩
abbrev S3DD : Shape := ⟨2, ![384, 128]⟩
abbrev S2DD : Shape := ⟨2, ![256, 128]⟩
abbrev SD : Shape := ⟨1, ![128]⟩

/-- Row `j` of the sender band of the message weights. -/
def r0 (j : Fin 128) : Fin 384 := ⟨j.val, by have := j.isLt; omega⟩
/-- Row `j` of the receiver band. -/
def r1 (j : Fin 128) : Fin 384 := ⟨128 + j.val, by have := j.isLt; omega⟩
/-- Row `j` of the edge band. -/
def r2 (j : Fin 128) : Fin 384 := ⟨256 + j.val, by have := j.isLt; omega⟩
/-- Row `j` of the node band of the update weights. -/
def u0 (j : Fin 128) : Fin 256 := ⟨j.val, by have := j.isLt; omega⟩
/-- Row `j` of the aggregate band. -/
def u1 (j : Fin 128) : Fin 256 := ⟨128 + j.val, by have := j.isLt; omega⟩

/-- A negative row word counts from the end of a table of 100000 rows. -/
def wrap (x : BitVec 32) : BitVec 32 := Scalar.select (IntOp.cmpi .slt x 0#32) (IntOp.addi x 100000#32) x

/-- A row word read signed and clamped into the table. -/
def clampRow (x : BitVec 32) : Fin 100000 := ⟨min x.toInt.toNat (100000 - 1), by omega⟩

/-- The word `+0.0` and the word `1.0`, as the ideal values they denote. -/
def zero32 : EReal := Ideal.ofBits .f32 0x00000000#32
def one32 : EReal := Ideal.ofBits .f32 0x3F800000#32

section
variable (h : SND.Idx → EReal) (ei : S2E.Idx → BitVec 32) (ea : SED.Idx → EReal) (Wm : S3DD.Idx → EReal)
  (bm : SD.Idx → EReal) (Wu : S2DD.Idx → EReal) (bu : SD.Idx → EReal)

/-- The row looked up for edge `e`'s sender, and for its receiver. -/
def sendRow (e : Fin 600000) : Fin 100000 := clampRow (wrap (ei (ix2 (0 : Fin 2) e)))
def recRow (e : Fin 600000) : Fin 100000 := clampRow (wrap (ei (ix2 (1 : Fin 2) e)))

/-- The edges node `n` receives. -/
def inbox (n : Fin 100000) : Finset (Fin 600000) :=
  Finset.univ.filter fun e : Fin 600000 => (ei (ix2 (1 : Fin 2) e)).toInt = (n.val : ℤ)

/-! ### The restructured computation -/

/-- Node features through the sender band, and through the receiver band. -/
def Ps (p : Fin 100000) (q : Fin 128) : EReal := ∑ j : Fin 128, h (ix2 p j) * Wm (ix2 (r0 j) q)
def Pr (p : Fin 100000) (q : Fin 128) : EReal := ∑ j : Fin 128, h (ix2 p j) * Wm (ix2 (r1 j) q)

/-- What edge `e` contributes: its edge band plus its sender's projected row. -/
def msgK (e : Fin 600000) (q : Fin 128) : EReal :=
  (∑ j : Fin 128, ea (ix2 e j) * Wm (ix2 (r2 j) q)) + Ps h Wm (sendRow ei e) q

/-- The contributions summed per receiving node, and the number of edges a node receives. -/
def aggK (n : Fin 100000) (q : Fin 128) : EReal := zero32 + ∑ e ∈ inbox ei n, msgK h ei ea Wm e q
def deg (n : Fin 100000) : EReal := zero32 + ∑ _e ∈ inbox ei n, one32

/-- The aggregate completed by the receiver band and the bias, each once per received edge. -/
def aggFull (n : Fin 100000) (q : Fin 128) : EReal :=
  (aggK h ei ea Wm n q + deg ei n * Pr h Wm n q) + deg ei n * bm (ix1 q)

def outK (n : Fin 100000) (q : Fin 128) : EReal :=
  ((∑ j : Fin 128, h (ix2 n j) * Wu (ix2 (u0 j) q))
    + ∑ j : Fin 128, aggFull h ei ea Wm bm n j * Wu (ix2 (u1 j) q)) + bu (ix1 q)

/-! ### The computation as first written -/

/-- Edge `e`'s stacked row: sender features, receiver features, edge features. -/
def cat3 (e : Fin 600000) (k : Fin 384) : EReal :=
  if h0 : k.val < 128 then h (ix2 (sendRow ei e) ⟨k.val, h0⟩)
  else if h1 : k.val < 256 then h (ix2 (recRow ei e) ⟨k.val - 128, by omega⟩)
  else ea (ix2 e ⟨k.val - 256, by have := k.isLt; omega⟩)

def msgR (e : Fin 600000) (q : Fin 128) : EReal :=
  (∑ k : Fin 384, cat3 h ei ea e k * Wm (ix2 k q)) + bm (ix1 q)

def aggR (n : Fin 100000) (q : Fin 128) : EReal := zero32 + ∑ e ∈ inbox ei n, msgR h ei ea Wm bm e q

/-- Node `n`'s stacked row: its features, its aggregate. -/
def cat2 (n : Fin 100000) (k : Fin 256) : EReal :=
  if h0 : k.val < 128 then h (ix2 n ⟨k.val, h0⟩)
  else aggR h ei ea Wm bm n ⟨k.val - 128, by have := k.isLt; omega⟩

def outR (n : Fin 100000) (q : Fin 128) : EReal :=
  (∑ k : Fin 256, cat2 h ei ea Wm bm n k * Wu (ix2 k q)) + bu (ix1 q)

end

end Cert.Spec

end
-- ==== Proof.KArr.lean ====
/-
  The program's arrays, each under a name of its literal type (a rectangle of extended reals, or of 32-bit
  words), at a given valuation of the buffers: arithmetic on entries is stated over these names.
-/
import proofs.«405364_j51170240364728_3_alg».proof.Proof.Gen.KernelIdeal.Frame
import Idealize.ShloMosaic.PureOps.Ideal

noncomputable section

open Idealize.ShloMosaic Idealize.ShloMosaic.TcCoe Idealize.SL.Sem

namespace Cert.KernelIdeal.Hand

open Cert.KernelIdeal Cert.KernelIdeal.Gen

variable (V : (c : Dev nD) → (b : Ref sig .tc) → Buf (Elt Ideal) ((c : Thread nD τ).loc b))

/-- node features, edge list, edge features, message weights and bias, update weights and bias -/
abbrev aH (c : Dev nD) : S100000x128.Idx → EReal := V c main_arg0
abbrev aEi (c : Dev nD) : S2x600000.Idx → BitVec 32 := V c main_arg1
abbrev aEa (c : Dev nD) : S600000x128.Idx → EReal := V c main_arg2
abbrev aWm (c : Dev nD) : S384x128.Idx → EReal := V c main_arg3
abbrev aBm (c : Dev nD) : S128.Idx → EReal := V c main_arg4
abbrev aWu (c : Dev nD) : S256x128.Idx → EReal := V c main_arg5
abbrev aBu (c : Dev nD) : S128.Idx → EReal := V c main_arg6
/-- the sender list and the receiver list -/
abbrev aSend (c : Dev nD) : S600000.Idx → BitVec 32 := V c main_v1
abbrev aRec (c : Dev nD) : S600000.Idx → BitVec 32 := V c main_v3
/-- the three bands of the message weights -/
abbrev aWs (c : Dev nD) : S128x128.Idx → EReal := V c main_v4
abbrev aWr (c : Dev nD) : S128x128.Idx → EReal := V c main_v5
abbrev aWa (c : Dev nD) : S128x128.Idx → EReal := V c main_v6
/-- the two projections of the node features -/
abbrev aPs (c : Dev nD) : S100000x128.Idx → EReal := V c main_v7_0
abbrev aPr (c : Dev nD) : S100000x128.Idx → EReal := V c main_v7_1
/-- the projected sender rows per edge, and the edge contributions -/
abbrev aPsg (c : Dev nD) : S600000x128.Idx → EReal := V c main_v8
abbrev aMsg (c : Dev nD) : S600000x128.Idx → EReal := V c main_v9
/-- the raw aggregate, the count column, the bias rows, the two bands of the update weights -/
abbrev aAgg (c : Dev nD) : S100000x128.Idx → EReal := V c main_v12
abbrev aDeg (c : Dev nD) : S100000x1.Idx → EReal := V c main_v17
abbrev aBmRow (c : Dev nD) : S1x128.Idx → EReal := V c main_v18
abbrev aWuh (c : Dev nD) : S128x128.Idx → EReal := V c main_v19
abbrev aWum (c : Dev nD) : S128x128.Idx → EReal := V c main_v20
abbrev aBuRow (c : Dev nD) : S1x128.Idx → EReal := V c main_v21
/-- the result -/
abbrev aOut (c : Dev nD) : S100000x128.Idx → EReal := V c main_v22

/-- what each region leaves in its result arrays, entered at `V` -/
abbrev fin0_3 (c : Dev nD) : S100000x128.Idx → EReal := (dat0 (F := Ideal) V c).arrAt 3 cfg0.N
abbrev fin0_4 (c : Dev nD) : S100000x128.Idx → EReal := (dat0 (F := Ideal) V c).arrAt 4 cfg0.N
abbrev fin1_3 (c : Dev nD) : S600000x128.Idx → EReal := (dat1 (F := Ideal) V c).arrAt 3 cfg1.N
abbrev fin2_8 (c : Dev nD) : S100000x128.Idx → EReal := (dat2 (F := Ideal) V c).arrAt 8 cfg2.N

section Launched
variable (m : (ℓ : Loc nD τ sig) → Buf (Elt Ideal) ℓ)
/-- the seven argument arrays as launched -/
abbrev mH (c : Dev nD) : S100000x128.Idx → EReal := m ((c : Thread nD τ).loc main_arg0)
abbrev mEi (c : Dev nD) : S2x600000.Idx → BitVec 32 := m ((c : Thread nD τ).loc main_arg1)
abbrev mEa (c : Dev nD) : S600000x128.Idx → EReal := m ((c : Thread nD τ).loc main_arg2)
abbrev mWm (c : Dev nD) : S384x128.Idx → EReal := m ((c : Thread nD τ).loc main_arg3)
abbrev mBm (c : Dev nD) : S128.Idx → EReal := m ((c : Thread nD τ).loc main_arg4)
abbrev mWu (c : Dev nD) : S256x128.Idx → EReal := m ((c : Thread nD τ).loc main_arg5)
abbrev mBu (c : Dev nD) : S128.Idx → EReal := m ((c : Thread nD τ).loc main_arg6)
end Launched

end Cert.KernelIdeal.Hand

end
-- ==== Proof.Reg0.lean ====
/-
  The projection region: each of its two result arrays is the node features times one 128-row band of weights.

  The region visits ten points. Point `t` holds rows `10000 t … 10000 t + 9999` of the node features and the whole of
  both bands, and writes the same rows of both results: each written entry is the sum, over the 128 inner positions,
  of the features' row against a band's column (a change of number format is the identity on the extended reals, a
  recast to the same shape moves nothing, and the product is accumulated into zero). The ten row blocks tile the
  100000 rows, so each result array as a whole is "rows of the features against the band".
-/
import proofs.«405364_j51170240364728_3_alg».proof.Proof.Gen.KernelIdeal.Frame
import proofs.«405364_j51170240364728_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405364_j51170240364728_3_alg».proof.Proof.KArr
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## One product of a row block with a square band, entry by entry -/

/-- Both offsets of an access to a whole buffer are zero. -/
private theorem zero_offsets : (![0, 0] : Fin 2 → Nat) = fun _ => 0 :=
  funext fun a => match a with | ⟨0, _⟩ => rfl | ⟨1, _⟩ => rfl

/-- The left operand of the product is read at the output's row … -/
private theorem lhs_axis0 (i : S10000x128.Idx) (s : dot_S10000x128_S128x128_S10000x128_1_0_0_1_n_n.contr.Idx) :
    (dot_S10000x128_S128x128_S10000x128_1_0_0_1_n_n.lhsIdx i s 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and at the summation index as its column; -/
private theorem lhs_axis1 (i : S10000x128.Idx) (s : dot_S10000x128_S128x128_S10000x128_1_0_0_1_n_n.contr.Idx) :
    (dot_S10000x128_S128x128_S10000x128_1_0_0_1_n_n.lhsIdx i s 1).val = (s ⟨0, by decide⟩).val :=
  dot_S10000x128_S128x128_S10000x128_1_0_0_1_n_n.lhsIdx_val_of_single rfl i s
/-- the right operand at the summation index as its row … -/
private theorem rhs_axis0 (i : S10000x128.Idx) (s : dot_S10000x128_S128x128_S10000x128_1_0_0_1_n_n.contr.Idx) :
    (dot_S10000x128_S128x128_S10000x128_1_0_0_1_n_n.rhsIdx i s 0).val = (s ⟨0, by decide⟩).val :=
  dot_S10000x128_S128x128_S10000x128_1_0_0_1_n_n.rhsIdx_val_of_single rfl i s
/-- … and at the output's column. -/
private theorem rhs_axis1 (i : S10000x128.Idx) (s : dot_S10000x128_S128x128_S10000x128_1_0_0_1_n_n.contr.Idx) :
    (dot_S10000x128_S128x128_S10000x128_1_0_0_1_n_n.rhsIdx i s 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A product accumulated into zero, read at row `p` and column `q`: the sum over the 128 inner positions of the
    left operand's row `p` against the right operand's column `q`. The summation index of the product has one axis
    of extent 128, so the sum over it is the sum over `Fin 128`. -/
private theorem product_apply (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ j : Fin 128, x (ix2 p j) * w (ix2 j q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The first stored value of the projection body at row `p`, column `q` of its block: a change of number format is
    the identity on the extended reals and a recast to the same shape moves nothing, so it is the block's row `p`
    against the band's column `q`. -/
private theorem sender_payload_apply (x : Vec Ideal S10000x128 .f32) (w : Vec Ideal S128x128 .f32) (p : Fin 10000) (q : Fin 128) :
    k0_pay2 (F := Ideal) x w (ix2 p q) = ∑ j : Fin 128, x (ix2 p j) * w (ix2 j q) := by
  unfold k0_pay2 k0_pay1
  rw [shapeCast_self]
  exact product_apply (truncf .bf16 x bitsLt_bf16_f32) (truncf .bf16 w bitsLt_bf16_f32) p q

/-- The second stored value likewise, against the other band. -/
private theorem receiver_payload_apply (x : Vec Ideal S10000x128 .f32) (w : Vec Ideal S128x128 .f32) (p : Fin 10000) (q : Fin 128) :
    k0_pay3 (F := Ideal) x w (ix2 p q) = ∑ j : Fin 128, x (ix2 p j) * w (ix2 j q) := by
  unfold k0_pay3 k0_pay1
  rw [shapeCast_self]
  exact product_apply (truncf .bf16 x bitsLt_bf16_f32) (truncf .bf16 w bitsLt_bf16_f32) p q

/-! ## The whole array, and the blocks as its parts -/

/-- Rows of `a` against a square band `w`: at row `r`, column `s`, the sum over the 128 inner positions of
    `a` at `(r, j)` times `w` at `(j, s)`. -/
private def rowsTimes (a : S100000x128.Idx → EReal) (w : S128x128.Idx → EReal) : S100000x128.Idx → EReal :=
  fun i => ∑ j : Fin 128, a (ix2 (⟨(i 0).val, idx2_lt0 i⟩ : Fin 100000) j) * w (ix2 j (⟨(i 1).val, idx2_lt1 i⟩ : Fin 128))

private theorem rowsTimes_apply (a : S100000x128.Idx → EReal) (w : S128x128.Idx → EReal) (p : Fin 100000) (q : Fin 128) :
    rowsTimes a w (ix2 p q) = ∑ j : Fin 128, a (ix2 p j) * w (ix2 j q) := rfl

/-- The block maps over the ten points: the row blocks of the features and of both results sit at the point's own
    number, in the one column block; both bands are the one block of their arrays. -/
private theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s block of the node features is row `10000 t + p` of the array. -/
private theorem features_block_apply (c : Dev nD) (t : Fin cfg0.N) (p : Fin 10000) (j : Fin 128) (r : Fin 100000)
    (hr : r.val = t.val * 10000 + p.val) :
    (iblk0 V c 0 t : Vec Ideal S10000x128 .f32) (ix2 p j) = aH V c (ix2 r j) := by
  obtain ⟨e0, e1, -⟩ := index_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * j.val = j.val; rw [e1]; omega

/-- Every point's block of the sender band is the band. -/
private theorem sender_band_block_apply (c : Dev nD) (t : Fin cfg0.N) (j : Fin 128) (q : Fin 128) :
    (iblk0 V c 1 t : Vec Ideal S128x128 .f32) (ix2 j q) = aWs V c (ix2 j q) := by
  obtain ⟨-, -, e0, e1, -⟩ := index_facts t
  unfold iblk0
  rw [View.read_apply]
  show V c main_v4 _ = V c main_v4 _
  refine congrArg (V c main_v4) ?_
  funext a
  apply Fin.ext
  match a with
  | ⟨0, _⟩ => show win0_1.index t (0 : Fin 2) * 128 + 1 * j.val = j.val; rw [e0]; omega
  | ⟨1, _⟩ => show win0_1.index t (1 : Fin 2) * 128 + 1 * q.val = q.val; rw [e1]; omega

/-- Every point's block of the receiver band is the band. -/
private theorem receiver_band_block_apply (c : Dev nD) (t : Fin cfg0.N) (j : Fin 128) (q : Fin 128) :
    (iblk0 V c 2 t : Vec Ideal S128x128 .f32) (ix2 j q) = aWr V c (ix2 j q) := by
  obtain ⟨-, -, -, -, e0, e1, -⟩ := index_facts t
  unfold iblk0
  rw [View.read_apply]
  show V c main_v5 _ = V c main_v5 _
  refine congrArg (V c main_v5) ?_
  funext a
  apply Fin.ext
  match a with
  | ⟨0, _⟩ => show win0_2.index t (0 : Fin 2) * 128 + 1 * j.val = j.val; rw [e0]; omega
  | ⟨1, _⟩ => show win0_2.index t (1 : Fin 2) * 128 + 1 * q.val = q.val; rw [e1]; omega

/-! ## The first result: the features against the sender band -/

/-- Row `p` of point `t`'s block of an array laid out like the first result is its row `10000 t + p`. -/
private theorem sender_result_block_apply (t : Fin cfg0.N) (p : Fin 10000) (q : Fin 128) (r : Fin 100000)
    (hr : r.val = t.val * 10000 + p.val) (G : S100000x128.Idx → EReal) :
    (((cfg0.win 3).blk t).view.read (Elt Ideal) G : Vec Ideal S10000x128 .f32) (ix2 p q) = G (ix2 r q) := by
  obtain ⟨-, -, -, -, -, -, e0, e1, -⟩ := index_facts t
  rw [View.read_apply]
  show G _ = G _
  refine congrArg G ?_
  funext a
  apply Fin.ext
  match a with
  | ⟨0, _⟩ => show win0_3.index t (0 : Fin 2) * 10000 + 1 * p.val = r.val; rw [e0, hr]; omega
  | ⟨1, _⟩ => show win0_3.index t (1 : Fin 2) * 128 + 1 * q.val = q.val; rw [e1]; omega

/-- What point `t` writes back to the first result is block `t` of the features' rows against the sender band. -/
private theorem sender_flushed (c : Dev nD) (t : Fin cfg0.N) :
    (dat0 (F := Ideal) V c).flushed 3 t = ((cfg0.win 3).blk t).view.read (Elt Ideal) (rowsTimes (aH V c) (aWs V c)) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x128) zero_offsets]
  funext y
  obtain ⟨p, q, rfl⟩ : ∃ (p : Fin 10000) (q : Fin 128), y = ix2 p q := ⟨y 0, y 1, eq_ix2 y⟩
  have ht : t.val < 10 := lt_of_lt_of_eq t.isLt N_0
  have hr : t.val * 10000 + p.val < 100000 := by have := p.isLt; omega
  refine (sender_payload_apply (iblk0 V c 0 t) (iblk0 V c 1 t) p q).trans ?_
  refine Eq.trans ?_ (sender_result_block_apply t p q ⟨_, hr⟩ rfl (rowsTimes (aH V c) (aWs V c))).symm
  rw [rowsTimes_apply]
  refine Finset.sum_congr rfl fun j _ => ?_
  rw [features_block_apply V c t p j ⟨_, hr⟩ rfl, sender_band_block_apply V c t j q]

/-- An index of the first result is in point `t`'s block iff each coordinate is in the block's range on its axis. -/
private theorem sender_mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v7_0).slice (win0_3.rect t)).set ↔ _
  rw [View.set_slice_whole, Rect.mem_set_unit]
  exact Iff.rfl

/-- Every row of the first result lies in the block of the point numbered by the row's ten-thousands. -/
private theorem sender_cover (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 10 := N_0
  refine ⟨⟨(i 0).val / 10000, by rw [hN]; omega⟩, flush0_3 _, ?_⟩
  rw [sender_mem_blk]
  obtain ⟨-, -, -, -, -, -, e0, e1, -⟩ := index_facts ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- After the region the first result is the features' rows against the sender band. -/
private theorem sender_array (c : Dev nD) : fin0_3 V c = rowsTimes (aH V c) (aWs V c) :=
  (dat0 (F := Ideal) V c).arrAt_eq_of_cover 3 (rowsTimes (aH V c) (aWs V c)) (fun t _ => sender_flushed V c t) sender_cover

/-- After the projection region its first result array holds, at row `p` and column `q`, the product of row `p`
    of the node features with column `q` of the sender band. -/
theorem final0_3 (c : Dev nD) (p : Fin 100000) (q : Fin 128) :
    fin0_3 V c (ix2 p q) = ∑ j : Fin 128, aH V c (ix2 p j) * aWs V c (ix2 j q) := by
  rw [sender_array]
  rfl

/-! ## The second result: the features against the receiver band -/

/-- Row `p` of point `t`'s block of an array laid out like the second result is its row `10000 t + p`. -/
private theorem receiver_result_block_apply (t : Fin cfg0.N) (p : Fin 10000) (q : Fin 128) (r : Fin 100000)
    (hr : r.val = t.val * 10000 + p.val) (G : S100000x128.Idx → EReal) :
    (((cfg0.win 4).blk t).view.read (Elt Ideal) G : Vec Ideal S10000x128 .f32) (ix2 p q) = G (ix2 r q) := by
  obtain ⟨-, -, -, -, -, -, -, -, e0, e1⟩ := index_facts t
  rw [View.read_apply]
  show G _ = G _
  refine congrArg G ?_
  funext a
  apply Fin.ext
  match a with
  | ⟨0, _⟩ => show win0_4.index t (0 : Fin 2) * 10000 + 1 * p.val = r.val; rw [e0, hr]; omega
  | ⟨1, _⟩ => show win0_4.index t (1 : Fin 2) * 128 + 1 * q.val = q.val; rw [e1]; omega

/-- What point `t` writes back to the second result is block `t` of the features' rows against the receiver band. -/
private theorem receiver_flushed (c : Dev nD) (t : Fin cfg0.N) :
    (dat0 (F := Ideal) V c).flushed 4 t = ((cfg0.win 4).blk t).view.read (Elt Ideal) (rowsTimes (aH V c) (aWr V c)) := by
  show (cfg0.win 4).cut (grid0.coords t) ((dat0 V c).after 4 t) = _
  rw [after0_4]
  unfold out0_4
  rw [View.canon_unit_zero zero_offsets]
  simp only [View.ld_unit_zero (S := S10000x128) zero_offsets, View.ld_unit_zero (S := S128x128) zero_offsets]
  funext y
  obtain ⟨p, q, rfl⟩ : ∃ (p : Fin 10000) (q : Fin 128), y = ix2 p q := ⟨y 0, y 1, eq_ix2 y⟩
  have ht : t.val < 10 := lt_of_lt_of_eq t.isLt N_0
  have hr : t.val * 10000 + p.val < 100000 := by have := p.isLt; omega
  refine (receiver_payload_apply (iblk0 V c 0 t) (iblk0 V c 2 t) p q).trans ?_
  refine Eq.trans ?_ (receiver_result_block_apply t p q ⟨_, hr⟩ rfl (rowsTimes (aH V c) (aWr V c))).symm
  rw [rowsTimes_apply]
  refine Finset.sum_congr rfl fun j _ => ?_
  rw [features_block_apply V c t p j ⟨_, hr⟩ rfl, receiver_band_block_apply V c t j q]

/-- An index of the second result is in point `t`'s block iff each coordinate is in the block's range on its axis. -/
private theorem receiver_mem_blk (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v7_1).slice (win0_4.rect t)).set ↔ _
  rw [View.set_slice_whole, Rect.mem_set_unit]
  exact Iff.rfl

/-- Every row of the second result lies in the block of the point numbered by the row's ten-thousands. -/
private theorem receiver_cover (i : S100000x128.Idx) :
    ∃ t : Fin cfg0.N, (cfg0.win 4).flush t = true ∧ i ∈ ((cfg0.win 4).blk t).view.set := by
  have hi0 : (i 0).val < 100000 := idx2_lt0 i
  have hi1 : (i 1).val < 128 := idx2_lt1 i
  have hN : cfg0.N = 10 := N_0
  refine ⟨⟨(i 0).val / 10000, by rw [hN]; omega⟩, flush0_4 _, ?_⟩
  rw [receiver_mem_blk]
  obtain ⟨-, -, -, -, -, -, -, -, e0, e1⟩ := index_facts ⟨(i 0).val / 10000, by rw [hN]; omega⟩
  intro a
  match a with
  | ⟨0, _⟩ =>
    show win0_4.index _ (0 : Fin 2) * 10000 ≤ (i 0).val ∧ (i 0).val < win0_4.index _ (0 : Fin 2) * 10000 + 10000
    rw [e0]; show (i 0).val / 10000 * 10000 ≤ (i 0).val ∧ (i 0).val < (i 0).val / 10000 * 10000 + 10000; omega
  | ⟨1, _⟩ =>
    show win0_4.index _ (1 : Fin 2) * 128 ≤ (i 1).val ∧ (i 1).val < win0_4.index _ (1 : Fin 2) * 128 + 128
    rw [e1]; omega

/-- After the region the second result is the features' rows against the receiver band. -/
private theorem receiver_array (c : Dev nD) : fin0_4 V c = rowsTimes (aH V c) (aWr V c) :=
  (dat0 (F := Ideal) V c).arrAt_eq_of_cover 4 (rowsTimes (aH V c) (aWr V c)) (fun t _ => receiver_flushed V c t) receiver_cover

/-- Its second result array: the same rows against the receiver band. -/
theorem final0_4 (c : Dev nD) (p : Fin 100000) (q : Fin 128) :
    fin0_4 V c (ix2 p q) = ∑ j : Fin 128, aH V c (ix2 p j) * aWr V c (ix2 j q) := by
  rw [receiver_array]
  rfl

end Cert.KernelIdeal.Hand

end
-- ==== Proof.Reg1.lean ====
/-
  The edge region: each edge's row is its edge features times the edge band of weights, plus the row handed in for it.
-/
import proofs.«405364_j51170240364728_3_alg».proof.Proof.Gen.KernelIdeal.Frame
import proofs.«405364_j51170240364728_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405364_j51170240364728_3_alg».proof.Proof.KArr
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The result as one function of the arrays the region reads -/

/-- Entry `(e, q)` of the edge region's result: row `e` of the edge features against column `q` of the edge band,
    plus the entry of the row handed in for edge `e`. -/
private def edgeEntry (ea psg : S600000x128.Idx → EReal) (wa : S128x128.Idx → EReal) (e : Fin 600000) (q : Fin 128) : EReal :=
  (∑ j : Fin 128, ea (ix2 e j) * wa (ix2 j q)) + psg (ix2 e q)

/-- The same, as an array indexed like the result. -/
private def edgeArr (ea psg : S600000x128.Idx → EReal) (wa : S128x128.Idx → EReal) : S600000x128.Idx → EReal :=
  fun i => edgeEntry ea psg wa ⟨(i 0).val, (i 0).isLt⟩ ⟨(i 1).val, (i 1).isLt⟩

private theorem edgeArr_ix2 (ea psg : S600000x128.Idx → EReal) (wa : S128x128.Idx → EReal) (e : Fin 600000) (q : Fin 128) :
    edgeArr ea psg wa (ix2 e q) = edgeEntry ea psg wa e q := rfl

/-! ## The body's product at an entry

The product contracts the second axis of a block of rows with the first axis of the band: at entry `(p, q)` the
left operand is read at `(p, k)` and the right one at `(k, q)`. -/

private theorem lhs_edge_0 (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs_edge_1 (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
private theorem rhs_edge_0 (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
private theorem rhs_edge_1 (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into a zero accumulator, at entry `(p, q)`: the sum over the shared axis. -/
private theorem edge_matmul_apply (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ j : Fin 128, x (ix2 p j) * w (ix2 j q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_edge_0 _ _
    | ⟨1, _⟩ => exact (lhs_edge_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_edge_0 _ _).trans hk
    | ⟨1, _⟩ => exact rhs_edge_1 _ _)
  rw [el, er]

/-- What the body stores, at entry `(p, q)` of its block: a change of float format is the identity on extended
    reals, so it is the second block's row `p` against the band's column `q`, plus the first block's entry. -/
private theorem edge_pay_apply (x0 x1 : Vec Ideal S10000x128 .f32) (x2 : Vec Ideal S128x128 .f32) (p : Fin 10000) (q : Fin 128) :
    k1_pay1 (F := Ideal) x0 x1 x2 (ix2 p q) = (∑ j : Fin 128, x1 (ix2 p j) * x2 (ix2 j q)) + x0 (ix2 p q) := by
  unfold k1_pay1
  simp only [shapeCast_self]
  rw [addf_apply, edge_matmul_apply]
  rfl

/-! ## A block of ten thousand edges

Grid point `t` works on edges `10000 t … 10000 t + 9999`: the two row-blocked inputs and the result move together
along the edges, the band is read whole at every point. -/

private theorem zero_off : (![0, 0] : Fin 2 → Nat) = fun _ => 0 := funext fun a => by fin_cases a <;> rfl

/-- The four index maps, decided over the sixty grid points. -/
private theorem edge_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

private theorem edge_point_lt (t : Fin cfg1.N) : t.val < 60 := by
  have h : grid1.N = 60 := N_1
  have h' : t.val < grid1.N := t.isLt
  omega

/-- The three input blocks at a point, under names of their literal types. -/
private abbrev psgBlk (c : Dev nD) (t : Fin cfg1.N) : Vec Ideal S10000x128 .f32 := iblk1 (F := Ideal) V c 0 t
private abbrev eaBlk (c : Dev nD) (t : Fin cfg1.N) : Vec Ideal S10000x128 .f32 := iblk1 (F := Ideal) V c 1 t
private abbrev waBlk (c : Dev nD) (t : Fin cfg1.N) : Vec Ideal S128x128 .f32 := iblk1 (F := Ideal) V c 2 t

/-- The block of handed-in rows at point `t` is rows `10000 t …` of that array. -/
private theorem psgBlk_apply (c : Dev nD) (t : Fin cfg1.N) (p : Fin 10000) (q : Fin 128) (e : Fin 600000)
    (he : e.val = t.val * 10000 + p.val) : psgBlk V c t (ix2 p q) = aPsg V c (ix2 e q) := by
  obtain ⟨h0, h1, -⟩ := edge_idx_facts t
  show V c main_v8 (((cfg1.win 0).blk t).view.emb (ix2 p q)) = V c main_v8 (ix2 e q)
  refine congrArg _ ?_
  funext a; apply Fin.ext
  match a with
  | ⟨0, _⟩ => show win1_0.index t (0 : Fin 2) * 10000 + 1 * p.val = e.val; rw [h0, he]; omega
  | ⟨1, _⟩ => show win1_0.index t (1 : Fin 2) * 128 + 1 * q.val = q.val; rw [h1]; omega

/-- The block of edge features at point `t` is rows `10000 t …` of the edge features. -/
private theorem eaBlk_apply (c : Dev nD) (t : Fin cfg1.N) (p : Fin 10000) (q : Fin 128) (e : Fin 600000)
    (he : e.val = t.val * 10000 + p.val) : eaBlk V c t (ix2 p q) = aEa V c (ix2 e q) := by
  obtain ⟨-, -, h0, h1, -⟩ := edge_idx_facts t
  show V c main_arg2 (((cfg1.win 1).blk t).view.emb (ix2 p q)) = V c main_arg2 (ix2 e q)
  refine congrArg _ ?_
  funext a; apply Fin.ext
  match a with
  | ⟨0, _⟩ => show win1_1.index t (0 : Fin 2) * 10000 + 1 * p.val = e.val; rw [h0, he]; omega
  | ⟨1, _⟩ => show win1_1.index t (1 : Fin 2) * 128 + 1 * q.val = q.val; rw [h1]; omega

/-- The band's block at every point is the whole band. -/
private theorem waBlk_apply (c : Dev nD) (t : Fin cfg1.N) (j : Fin 128) (q : Fin 128) :
    waBlk V c t (ix2 j q) = aWa V c (ix2 j q) := by
  obtain ⟨-, -, -, -, h0, h1, -⟩ := edge_idx_facts t
  show V c main_v6 (((cfg1.win 2).blk t).view.emb (ix2 j q)) = V c main_v6 (ix2 j q)
  refine congrArg _ ?_
  funext a; apply Fin.ext
  match a with
  | ⟨0, _⟩ => show win1_2.index t (0 : Fin 2) * 128 + 1 * j.val = j.val; rw [h0]; omega
  | ⟨1, _⟩ => show win1_2.index t (1 : Fin 2) * 128 + 1 * q.val = q.val; rw [h1]; omega

/-- One stored entry against the array: whenever the three blocks are rows `r …` of the handed-in rows, rows `r …` of
    the edge features and the whole band, the stored block's entry `y` is the result array's entry `i`, for `i` the
    place of `y` in the array. -/
private theorem edge_block_entry (ea psg : S600000x128.Idx → EReal) (wa : S128x128.Idx → EReal)
    (x0 x1 : Vec Ideal S10000x128 .f32) (x2 : Vec Ideal S128x128 .f32) (r : Nat) (hr : r + 10000 ≤ 600000)
    (h0 : ∀ (p : Fin 10000) (q : Fin 128), x0 (ix2 p q) = psg (ix2 ⟨r + p.val, by have := p.isLt; omega⟩ q))
    (h1 : ∀ (p : Fin 10000) (q : Fin 128), x1 (ix2 p q) = ea (ix2 ⟨r + p.val, by have := p.isLt; omega⟩ q))
    (h2 : ∀ (j : Fin 128) (q : Fin 128), x2 (ix2 j q) = wa (ix2 j q))
    (y : S10000x128.Idx) (i : S600000x128.Idx) (hi0 : (i 0).val = r + (y 0).val) (hi1 : (i 1).val = (y 1).val) :
    k1_pay1 (F := Ideal) x0 x1 x2 y = edgeArr ea psg wa i := by
  obtain ⟨p, q, rfl⟩ : ∃ (p : Fin 10000) (q : Fin 128), y = ix2 p q := ⟨y 0, y 1, eq_ix2 y⟩
  obtain ⟨e, q', rfl⟩ : ∃ (e : Fin 600000) (q' : Fin 128), i = ix2 e q' := ⟨i 0, i 1, eq_ix2 i⟩
  have he : e = ⟨r + p.val, Nat.lt_of_lt_of_le (Nat.add_lt_add_left p.isLt r) hr⟩ := Fin.ext hi0
  have hq : q' = q := Fin.ext hi1
  subst he hq
  rw [edge_pay_apply, edgeArr_ix2]
  unfold edgeEntry
  rw [h0]
  refine congrArg (· + _) (Finset.sum_congr rfl fun j _ => ?_)
  rw [h1, h2]

/-- WHAT POINT `t` WRITES BACK is block `t` of the result as a function of the three arrays. -/
private theorem edge_flushed_eq (c : Dev nD) (t : Fin cfg1.N) :
    (dat1 (F := Ideal) V c).flushed 3 t
      = ((cfg1.win 3).blk t).view.read (Elt Ideal) (edgeArr (aEa V c) (aPsg V c) (aWa V c)) := by
  show (cfg1.win 3).cut (grid1.coords t) ((dat1 (F := Ideal) V c).after 3 t) = _
  rw [after1_3]
  unfold out1_3
  rw [View.canon_unit_zero zero_off]
  simp only [View.ld_unit_zero (S := S10000x128) zero_off, View.ld_unit_zero (S := S128x128) zero_off]
  have ht := edge_point_lt t
  obtain ⟨-, -, -, -, -, -, h0, h1⟩ := edge_idx_facts t
  funext j
  have hj0 : (j 0).val < 10000 := (j 0).isLt
  have hj1 : (j 1).val < 128 := (j 1).isLt
  refine edge_block_entry (aEa V c) (aPsg V c) (aWa V c) (psgBlk V c t) (eaBlk V c t) (waBlk V c t) (t.val * 10000) (by omega)
    (fun p q => psgBlk_apply V c t p q _ rfl) (fun p q => eaBlk_apply V c t p q _ rfl) (fun j q => waBlk_apply V c t j q)
    ((cfg1.win 3).xinj (grid1.coords t) j) (((cfg1.win 3).blk t).view.emb j) ?_ ?_
  · show win1_3.index t (0 : Fin 2) * 10000 + 1 * (j 0).val = t.val * 10000 + (j 0).val
    rw [h0]; omega
  · show win1_3.index t (1 : Fin 2) * 128 + 1 * (j 1).val = (j 1).val
    rw [h1]; omega

/-- An index of the result array is in point `t`'s block iff each coordinate is in the block's range on its axis. -/
private theorem edge_mem_blk (t : Fin cfg1.N) (i : S600000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v9).slice (win1_3.rect t)).set ↔ _
  rw [View.set_slice_whole, Rect.mem_set_unit]
  exact Iff.rfl

/-- Every edge's row lies in the block of the point `e / 10000`. -/
private theorem edge_cover (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  have hN : grid1.N = 60 := N_1
  let t : Fin cfg1.N := ⟨(i 0).val / 10000, by show (i 0).val / 10000 < grid1.N; omega⟩
  have htv : t.val = (i 0).val / 10000 := rfl
  obtain ⟨-, -, -, -, -, -, h0, h1⟩ := edge_idx_facts t
  refine ⟨t, flush1_3 t, ?_⟩
  rw [edge_mem_blk]
  intro a
  match a with
  | ⟨0, _⟩ => show win1_3.index t (0 : Fin 2) * 10000 ≤ (i 0).val ∧ (i 0).val < win1_3.index t (0 : Fin 2) * 10000 + 10000; rw [h0, htv]; omega
  | ⟨1, _⟩ => show win1_3.index t (1 : Fin 2) * 128 ≤ (i 1).val ∧ (i 1).val < win1_3.index t (1 : Fin 2) * 128 + 128; rw [h1]; omega

/-- THE RESULT ARRAY after the region is that function of the three arrays it reads. -/
private theorem edge_final (c : Dev nD) : fin1_3 V c = edgeArr (aEa V c) (aPsg V c) (aWa V c) :=
  (dat1 (F := Ideal) V c).arrAt_eq_of_cover 3 (edgeArr (aEa V c) (aPsg V c) (aWa V c)) (fun t _ => edge_flushed_eq V c t) edge_cover

/-- After the edge region its result array holds, at edge `e` and column `q`, the product of the edge's feature row
    with column `q` of the edge band, plus the projected sender row's entry there. -/
theorem final1_3 (c : Dev nD) (e : Fin 600000) (q : Fin 128) :
    fin1_3 V c (ix2 e q) = (∑ j : Fin 128, aEa V c (ix2 e j) * aWa V c (ix2 j q)) + aPsg V c (ix2 e q) := by
  rw [edge_final V c]
  rfl

end Cert.KernelIdeal.Hand

end
-- ==== Proof.Reg2.lean ====
/-
  The update region: the aggregate is completed by (count) times (projected row) and (count) times (bias); node row and completed aggregate then go through their bands of the update weights.
-/
import proofs.«405364_j51170240364728_3_alg».proof.Proof.Gen.KernelIdeal.Frame
import proofs.«405364_j51170240364728_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405364_j51170240364728_3_alg».proof.Proof.KArr
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The body's arithmetic at one entry -/

/-- A column `[a, 1]` spread over `b` columns reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- In a product of a `5000 × 128` block with a `128 × 128` band, entry `(i₀, i₁)` pairs the block's row `i₀` … -/
private theorem lhs_band_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the summed column … -/
private theorem lhs_band_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … with the band's summed row … -/
private theorem rhs_band_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … at the band's column `i₁`. -/
private theorem rhs_band_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a band, accumulated onto zero: entry `(p, q)` is the sum over `k` of the block's `(p, k)` times the
    band's `(k, q)`. -/
private theorem band_product_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_band_0 _ _
    | ⟨1, _⟩ => exact (lhs_band_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_band_0 _ _).trans hk
    | ⟨1, _⟩ => exact rhs_band_1 _ _)
  rw [el, er]

/-- The body's stored value at row `p`, column `q` of a block: the node block's row through the node band, plus the
    completed aggregate's row — aggregate, plus count times projected row, plus count times bias — through the
    aggregate band, plus the update bias at `q`. -/
private theorem update_payload_apply (x0 x1 x3 : Vec Ideal S5000x128 .f32) (x5 : Vec Ideal S5000x1 .f32)
    (x7 : Vec Ideal S1x128 .f32) (x16 x19 : Vec Ideal S128x128 .f32) (x27 : Vec Ideal S1x128 .f32)
    (p : Fin 5000) (q : Fin 128) :
    k2_pay1 (F := Ideal) x0 x1 x3 x5 x7 x16 x19 x27 (ix2 p q)
      = ((∑ j : Fin 128, x0 (ix2 p j) * x16 (ix2 j q))
          + ∑ j : Fin 128, ((x1 (ix2 p j) + x5 (ix2 p (0 : Fin 1)) * x3 (ix2 p j))
                + x5 (ix2 p (0 : Fin 1)) * x7 (ix2 (0 : Fin 1) j)) * x19 (ix2 j q))
        + x27 (ix2 (0 : Fin 1) q) := by
  unfold k2_pay1
  simp only [shapeCast_self]
  rw [addf_apply, addf_apply, band_product_apply, band_product_apply, broadcastTo_1b_ab_apply]
  refine congrArg₂ (· + ·) (congrArg₂ (· + ·) (Finset.sum_congr rfl fun k _ => rfl) (Finset.sum_congr rfl fun k _ => ?_)) rfl
  show (x1 (ix2 p k) + broadcastTo S5000x128 x5 broadcasts_S5000x1_S5000x128 (ix2 p k) * x3 (ix2 p k)
      + broadcastTo S5000x128 x5 broadcasts_S5000x1_S5000x128 (ix2 p k) * broadcastTo S5000x128 x7 broadcasts_S1x128_S5000x128 (ix2 p k))
        * x19 (ix2 k q) = _
  rw [broadcastTo_a1_ab_apply, broadcastTo_1b_ab_apply]

/-! ## From the blocks to the array -/

/-- The zero offsets of a whole-block access. -/
private theorem hz : (![0, 0] : Fin 2 → Nat) = fun _ => 0 :=
  funext fun a => match a with | ⟨0, _⟩ => rfl | ⟨1, _⟩ => rfl

/-- The node and the column of an entry of a `100000 × 128` array. -/
private abbrev nodeOf (i : S100000x128.Idx) : Fin 100000 := ⟨(i 0).val, idx2_lt0 i⟩
private abbrev colOf (i : S100000x128.Idx) : Fin 128 := ⟨(i 1).val, idx2_lt1 i⟩

/-- The update of every node at once, as one function of the operand arrays: at node `n` and column `q`, the node's
    feature row through the node band, plus its completed aggregate row — aggregate, plus count times projected row,
    plus count times bias — through the aggregate band, plus the update bias at `q`. -/
private def updAll (h agg pr : S100000x128.Idx → EReal) (deg : S100000x1.Idx → EReal) (bm : S1x128.Idx → EReal)
    (wh wm : S128x128.Idx → EReal) (bu : S1x128.Idx → EReal) (i : S100000x128.Idx) : EReal :=
  ((∑ j : Fin 128, h (ix2 (nodeOf i) j) * wh (ix2 j (colOf i)))
      + ∑ j : Fin 128, ((agg (ix2 (nodeOf i) j) + deg (ix2 (nodeOf i) (0 : Fin 1)) * pr (ix2 (nodeOf i) j))
            + deg (ix2 (nodeOf i) (0 : Fin 1)) * bm (ix2 (0 : Fin 1) j)) * wm (ix2 j (colOf i)))
    + bu (ix2 (0 : Fin 1) (colOf i))

/-- A block whose rows are rows `r p` of the node arrays, and whose small operands are the whole small arrays, is
    sent by the body to the same rows of the update of every node. -/
private theorem update_block_apply (h agg pr : S100000x128.Idx → EReal) (deg : S100000x1.Idx → EReal)
    (bm : S1x128.Idx → EReal) (wh wm : S128x128.Idx → EReal) (bu : S1x128.Idx → EReal)
    (x0 x1 x3 : Vec Ideal S5000x128 .f32) (x5 : Vec Ideal S5000x1 .f32) (x7 : Vec Ideal S1x128 .f32)
    (x16 x19 : Vec Ideal S128x128 .f32) (x27 : Vec Ideal S1x128 .f32) (r : Fin 5000 → Fin 100000)
    (e0 : ∀ (p : Fin 5000) (k : Fin 128), x0 (ix2 p k) = h (ix2 (r p) k))
    (e1 : ∀ (p : Fin 5000) (k : Fin 128), x1 (ix2 p k) = agg (ix2 (r p) k))
    (e3 : ∀ (p : Fin 5000) (k : Fin 128), x3 (ix2 p k) = pr (ix2 (r p) k))
    (e5 : ∀ p : Fin 5000, x5 (ix2 p (0 : Fin 1)) = deg (ix2 (r p) (0 : Fin 1)))
    (e7 : ∀ k : Fin 128, x7 (ix2 (0 : Fin 1) k) = bm (ix2 (0 : Fin 1) k))
    (e16 : ∀ k q : Fin 128, x16 (ix2 k q) = wh (ix2 k q))
    (e19 : ∀ k q : Fin 128, x19 (ix2 k q) = wm (ix2 k q))
    (e27 : ∀ k : Fin 128, x27 (ix2 (0 : Fin 1) k) = bu (ix2 (0 : Fin 1) k))
    (p : Fin 5000) (q : Fin 128) :
    k2_pay1 (F := Ideal) x0 x1 x3 x5 x7 x16 x19 x27 (ix2 p q) = updAll h agg pr deg bm wh wm bu (ix2 (r p) q) := by
  rw [update_payload_apply]
  unfold updAll
  refine congrArg₂ (· + ·) (congrArg₂ (· + ·) (Finset.sum_congr rfl fun k _ => ?_) (Finset.sum_congr rfl fun k _ => ?_)) ?_
  · rw [e0, e16]
  · rw [e1, e5, e3, e7, e19]
  · rw [e27]

/-- The block-index maps over the grid: the node arrays, the count column and the result move one block of
    5000 rows per point; the bias rows and the two bands stay whole. -/
private theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row `p` of the block of point `t` is row `5000 t + p` of the array. -/
private theorem blockRow_lt (t : Fin cfg2.N) (p : Fin 5000) : t.val * 5000 + p.val < 100000 := by
  have ht : t.val < 20 := lt_of_lt_of_eq t.isLt N_2
  have hp := p.isLt
  omega
private abbrev blockRow (t : Fin cfg2.N) (p : Fin 5000) : Fin 100000 := ⟨t.val * 5000 + p.val, blockRow_lt t p⟩

/-- The node block of point `t`: rows `5000 t …` of the node features. -/
private theorem nodeBlock_apply (c : Dev nD) (t : Fin cfg2.N) (p : Fin 5000) (k : Fin 128) :
    (iblk2 V c 0 t : Vec Ideal S5000x128 .f32) (ix2 p k) = aH V c (ix2 (blockRow t p) k) := by
  have e0 : win2_0.index t (0 : Fin 2) = t.val := (index_facts t).1
  have e1 : win2_0.index t (1 : Fin 2) = 0 := (index_facts t).2.1
  show aH V c (((cfg2.win 0).blk t).view.emb (ix2 p k)) = aH V c (ix2 (blockRow t p) k)
  refine congrArg (aH V c) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The aggregate block of point `t`: the same rows of the raw aggregate. -/
private theorem aggBlock_apply (c : Dev nD) (t : Fin cfg2.N) (p : Fin 5000) (k : Fin 128) :
    (iblk2 V c 1 t : Vec Ideal S5000x128 .f32) (ix2 p k) = aAgg V c (ix2 (blockRow t p) k) := by
  have e0 : win2_1.index t (0 : Fin 2) = t.val := (index_facts t).2.2.1
  have e1 : win2_1.index t (1 : Fin 2) = 0 := (index_facts t).2.2.2.1
  show aAgg V c (((cfg2.win 1).blk t).view.emb (ix2 p k)) = aAgg V c (ix2 (blockRow t p) k)
  refine congrArg (aAgg V c) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

/-- The projection block of point `t`: the same rows of the projected node rows. -/
private theorem projBlock_apply (c : Dev nD) (t : Fin cfg2.N) (p : Fin 5000) (k : Fin 128) :
    (iblk2 V c 2 t : Vec Ideal S5000x128 .f32) (ix2 p k) = aPr V c (ix2 (blockRow t p) k) := by
  have e0 : win2_2.index t (0 : Fin 2) = t.val := (index_facts t).2.2.2.2.1
  have e1 : win2_2.index t (1 : Fin 2) = 0 := (index_facts t).2.2.2.2.2.1
  show aPr V c (((cfg2.win 2).blk t).view.emb (ix2 p k)) = aPr V c (ix2 (blockRow t p) k)
  refine congrArg (aPr V c) (funext fun a => Fin.ext ?_)
  match a with
  | ⟨0, _⟩ => show win2_2.index t (0 : Fin 2) * 5000 + 1 * p.val = t.val * 5000 + p.val; rw [e0]; omega
  | ⟨1, _⟩ => show win2_2.index t (1 : Fin 2) * 128 + 1 * k.val = k.val; rw [e1]; omega

/-- The count block of point `t`: the same rows of the count column. -/
private theorem degBlock_apply (c : Dev nD) (t : Fin cfg2.N) (p : Fin 5000) :
    (iblk2 V c 3 t : Vec Ideal S5000x1 .f32) (ix2 p (0 : Fin 1)) = aDeg V c (ix2 (blockRow t p) (0 : Fin 1)) := by
  have e0 : win2_3.index t (0 : Fin 2) = t.val := (index_facts t).2.2.2.2.2.2.1
  have e1 : win2_3.index t (1 : Fin 2) = 0 := (index_facts t).2.2.2.2.2.2.2.1
  show aDeg V c (((cfg2.win 3).blk t).view.emb (ix2 p (0 : Fin 1))) = aDeg V c (ix2 (blockRow t p) (0 : Fin 1))
  refine congrArg (aDeg V c) (funext fun a => Fin.ext ?_)
  match a with
  | ⟨0, _⟩ => show win2_3.index t (0 : Fin 2) * 5000 + 1 * p.val = t.val * 5000 + p.val; rw [e0]; omega
  | ⟨1, _⟩ => show win2_3.index t (1 : Fin 2) * 1 + 1 * 0 = 0; rw [e1]

/-- The message-bias row is fetched whole at every point. -/
private theorem biasRow_apply (c : Dev nD) (t : Fin cfg2.N) (k : Fin 128) :
    (iblk2 V c 4 t : Vec Ideal S1x128 .f32) (ix2 (0 : Fin 1) k) = aBmRow V c (ix2 (0 : Fin 1) k) := by
  have e0 : win2_4.index t (0 : Fin 2) = 0 := (index_facts t).2.2.2.2.2.2.2.2.1
  have e1 : win2_4.index t (1 : Fin 2) = 0 := (index_facts t).2.2.2.2.2.2.2.2.2.1
  show aBmRow V c (((cfg2.win 4).blk t).view.emb (ix2 (0 : Fin 1) k)) = aBmRow V c (ix2 (0 : Fin 1) k)
  refine congrArg (aBmRow V c) (funext fun a => Fin.ext ?_)
  match a with
  | ⟨0, _⟩ => show win2_4.index t (0 : Fin 2) * 1 + 1 * 0 = 0; rw [e0]
  | ⟨1, _⟩ => show win2_4.index t (1 : Fin 2) * 128 + 1 * k.val = k.val; rw [e1]; omega

/-- The node band is fetched whole at every point. -/
private theorem nodeBand_apply (c : Dev nD) (t : Fin cfg2.N) (k q : Fin 128) :
    (iblk2 V c 5 t : Vec Ideal S128x128 .f32) (ix2 k q) = aWuh V c (ix2 k q) := by
  have e0 : win2_5.index t (0 : Fin 2) = 0 := (index_facts t).2.2.2.2.2.2.2.2.2.2.1
  have e1 : win2_5.index t (1 : Fin 2) = 0 := (index_facts t).2.2.2.2.2.2.2.2.2.2.2.1
  show aWuh V c (((cfg2.win 5).blk t).view.emb (ix2 k q)) = aWuh V c (ix2 k q)
  refine congrArg (aWuh V c) (funext fun a => Fin.ext ?_)
  match a with
  | ⟨0, _⟩ => show win2_5.index t (0 : Fin 2) * 128 + 1 * k.val = k.val; rw [e0]; omega
  | ⟨1, _⟩ => show win2_5.index t (1 : Fin 2) * 128 + 1 * q.val = q.val; rw [e1]; omega

/-- The aggregate band is fetched whole at every point. -/
private theorem aggBand_apply (c : Dev nD) (t : Fin cfg2.N) (k q : Fin 128) :
    (iblk2 V c 6 t : Vec Ideal S128x128 .f32) (ix2 k q) = aWum V c (ix2 k q) := by
  have e0 : win2_6.index t (0 : Fin 2) = 0 := (index_facts t).2.2.2.2.2.2.2.2.2.2.2.2.1
  have e1 : win2_6.index t (1 : Fin 2) = 0 := (index_facts t).2.2.2.2.2.2.2.2.2.2.2.2.2.1
  show aWum V c (((cfg2.win 6).blk t).view.emb (ix2 k q)) = aWum V c (ix2 k q)
  refine congrArg (aWum V c) (funext fun a => Fin.ext ?_)
  match a with
  | ⟨0, _⟩ => show win2_6.index t (0 : Fin 2) * 128 + 1 * k.val = k.val; rw [e0]; omega
  | ⟨1, _⟩ => show win2_6.index t (1 : Fin 2) * 128 + 1 * q.val = q.val; rw [e1]; omega

/-- The update-bias row is fetched whole at every point. -/
private theorem updBiasRow_apply (c : Dev nD) (t : Fin cfg2.N) (k : Fin 128) :
    (iblk2 V c 7 t : Vec Ideal S1x128 .f32) (ix2 (0 : Fin 1) k) = aBuRow V c (ix2 (0 : Fin 1) k) := by
  have e0 : win2_7.index t (0 : Fin 2) = 0 := (index_facts t).2.2.2.2.2.2.2.2.2.2.2.2.2.2.1
  have e1 : win2_7.index t (1 : Fin 2) = 0 := (index_facts t).2.2.2.2.2.2.2.2.2.2.2.2.2.2.2.1
  show aBuRow V c (((cfg2.win 7).blk t).view.emb (ix2 (0 : Fin 1) k)) = aBuRow V c (ix2 (0 : Fin 1) k)
  refine congrArg (aBuRow V c) (funext fun a => Fin.ext ?_)
  match a with
  | ⟨0, _⟩ => show win2_7.index t (0 : Fin 2) * 1 + 1 * 0 = 0; rw [e0]
  | ⟨1, _⟩ => show win2_7.index t (1 : Fin 2) * 128 + 1 * k.val = k.val; rw [e1]; omega

/-- What point `t` writes back is block `t` of the update of every node. -/
private theorem flushed_update (c : Dev nD) (t : Fin cfg2.N) :
    (dat2 (F := Ideal) V c).flushed 8 t
      = ((cfg2.win 8).blk t).view.read (Elt Ideal) (updAll (aH V c) (aAgg V c) (aPr V c) (aDeg V c) (aBmRow V c) (aWuh V c) (aWum V c) (aBuRow V c)) := by
  show (cfg2.win 8).cut (grid2.coords t) ((dat2 V c).after 8 t) = _
  rw [after2_8]
  unfold out2_8
  rw [View.canon_unit_zero hz]
  simp only [View.ld_unit_zero (S := S5000x128) hz, View.ld_unit_zero (S := S5000x1) hz,
    View.ld_unit_zero (S := S1x128) hz, View.ld_unit_zero (S := S128x128) hz]
  funext j
  have hp : (j 0).val < 5000 := (j 0).isLt
  have hq : (j 1).val < 128 := (j 1).isLt
  have e0 : win2_8.index t (0 : Fin 2) = t.val := (index_facts t).2.2.2.2.2.2.2.2.2.2.2.2.2.2.2.2.1
  have e1 : win2_8.index t (1 : Fin 2) = 0 := (index_facts t).2.2.2.2.2.2.2.2.2.2.2.2.2.2.2.2.2
  have hloc : (cfg2.win 8).xinj (grid2.coords t) j = ix2 (⟨(j 0).val, hp⟩ : Fin 5000) (⟨(j 1).val, hq⟩ : Fin 128) :=
    funext fun a => Fin.ext (match a with | ⟨0, _⟩ => rfl | ⟨1, _⟩ => rfl)
  have hemb : (((cfg2.win 8).blk t).view.emb j : S100000x128.Idx)
      = ix2 (blockRow t ⟨(j 0).val, hp⟩) (⟨(j 1).val, hq⟩ : Fin 128) := by
    funext a; apply Fin.ext
    match a with
    | ⟨0, _⟩ => show win2_8.index t (0 : Fin 2) * 5000 + 1 * (j 0).val = t.val * 5000 + (j 0).val; rw [e0]; omega
    | ⟨1, _⟩ => show win2_8.index t (1 : Fin 2) * 128 + 1 * (j 1).val = (j 1).val; rw [e1]; omega
  show k2_pay1 (F := Ideal) (iblk2 V c 0 t) (iblk2 V c 1 t) (iblk2 V c 2 t) (iblk2 V c 3 t) (iblk2 V c 4 t) (iblk2 V c 5 t) (iblk2 V c 6 t) (iblk2 V c 7 t) ((cfg2.win 8).xinj (grid2.coords t) j)
      = updAll (aH V c) (aAgg V c) (aPr V c) (aDeg V c) (aBmRow V c) (aWuh V c) (aWum V c) (aBuRow V c) (((cfg2.win 8).blk t).view.emb j)
  rw [hloc, hemb]
  exact update_block_apply (aH V c) (aAgg V c) (aPr V c) (aDeg V c) (aBmRow V c) (aWuh V c) (aWum V c) (aBuRow V c)
    (iblk2 V c 0 t) (iblk2 V c 1 t) (iblk2 V c 2 t) (iblk2 V c 3 t) (iblk2 V c 4 t) (iblk2 V c 5 t) (iblk2 V c 6 t) (iblk2 V c 7 t) (blockRow t)
    (nodeBlock_apply V c t) (aggBlock_apply V c t) (projBlock_apply V c t) (degBlock_apply V c t)
    (biasRow_apply V c t) (nodeBand_apply V c t) (aggBand_apply V c t) (updBiasRow_apply V c t)
    ⟨(j 0).val, hp⟩ ⟨(j 1).val, hq⟩

/-- An entry lies in the block of point `t` iff each coordinate lies in the block's range on its axis. -/
private theorem mem_block (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v22).slice (win2_8.rect t)).set ↔ _
  rw [View.set_slice_whole, Rect.mem_set_unit]
  exact Iff.rfl

/-- Every node's row lies in the block of the point `node / 5000`, and every point writes its block back. -/
private theorem covered (i : S100000x128.Idx) :
    ∃ t : Fin cfg2.N, (cfg2.win 8).flush t = true ∧ i ∈ ((cfg2.win 8).blk t).view.set := by
  have h0 : (i 0).val < 100000 := (i 0).isLt
  have h1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  have e0 : win2_8.index t (0 : Fin 2) = t.val := (index_facts t).2.2.2.2.2.2.2.2.2.2.2.2.2.2.2.2.1
  have e1 : win2_8.index t (1 : Fin 2) = 0 := (index_facts t).2.2.2.2.2.2.2.2.2.2.2.2.2.2.2.2.2
  refine ⟨t, flush2_8 t, ?_⟩
  rw [mem_block]
  intro a
  match a with
  | ⟨0, _⟩ =>
    show win2_8.index t (0 : Fin 2) * 5000 ≤ (i 0).val ∧ (i 0).val < win2_8.index t (0 : Fin 2) * 5000 + 5000
    rw [e0, ht]; omega
  | ⟨1, _⟩ =>
    show win2_8.index t (1 : Fin 2) * 128 ≤ (i 1).val ∧ (i 1).val < win2_8.index t (1 : Fin 2) * 128 + 128
    rw [e1]; omega

/-- So the result array of the update region is the update of every node. -/
private theorem result_eq (c : Dev nD) : fin2_8 V c = updAll (aH V c) (aAgg V c) (aPr V c) (aDeg V c) (aBmRow V c) (aWuh V c) (aWum V c) (aBuRow V c) :=
  (dat2 (F := Ideal) V c).arrAt_eq_of_cover 8 (updAll (aH V c) (aAgg V c) (aPr V c) (aDeg V c) (aBmRow V c) (aWuh V c) (aWum V c) (aBuRow V c))
    (fun t _ => flushed_update V c t) covered

/-- After the update region its result array holds, at node `n` and column `q`: the node's feature row through the
    node band, plus the completed aggregate row — raw aggregate, plus count times projected row, plus count times
    bias — through the aggregate band, plus the update bias. -/
theorem final2_8 (c : Dev nD) (n : Fin 100000) (q : Fin 128) :
    fin2_8 V c (ix2 n q)
      = ((∑ j : Fin 128, aH V c (ix2 n j) * aWuh V c (ix2 j q))
          + ∑ j : Fin 128,
              ((aAgg V c (ix2 n j) + aDeg V c (ix2 n (0 : Fin 1)) * aPr V c (ix2 n j))
                + aDeg V c (ix2 n (0 : Fin 1)) * aBmRow V c (ix2 (0 : Fin 1) j)) * aWum V c (ix2 j q))
        + aBuRow V c (ix2 (0 : Fin 1) q) := by
  refine (congrFun (result_eq V c) (ix2 n q)).trans ?_
  rfl

end Cert.KernelIdeal.Hand

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.HostA.lean ====
/-
  The host operations before the first and before the second region: the bands cut out of the message weights, and the look-up of the projected sender rows.
-/
import proofs.«405364_j51170240364728_3_alg».proof.Proof.Gen.KernelIdeal.Frame
import proofs.«405364_j51170240364728_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405364_j51170240364728_3_alg».proof.Proof.KArr
import proofs.«405364_j51170240364728_3_alg».proof.Proof.LibRows
import Idealize.ShloMosaic.Lib.StableHlo.Run
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- A sender word in the table's range, counted from the end when negative, passes the look-up's range test. -/
theorem wrap_inRange (x : BitVec 32) (h1 : -100000 ≤ x.toInt) (h2 : x.toInt < 100000) :
    IntOp.cmpi .sge (Spec.wrap x) 0#32 = 1#1 ∧ IntOp.cmpi .sle (Spec.wrap x) 99999#32 = 1#1 := by
  have h0 : (0#32 : BitVec 32).toInt = 0 := by decide
  have h9 : (99999#32 : BitVec 32).toInt = 99999 := by decide
  have hk : (100000#32 : BitVec 32).toInt = 100000 := by decide
  -- the wrapped word, read signed, lies in [0, 99999]
  have hw : 0 ≤ (Spec.wrap x).toInt ∧ (Spec.wrap x).toInt ≤ 99999 := by
    by_cases hneg : x.toInt < 0
    · have hc : IntOp.cmpi .slt x 0#32 = 1#1 := by
        show BitVec.ofBool (decide (x.toInt < (0#32 : BitVec 32).toInt)) = 1#1
        rw [h0, decide_eq_true hneg]; rfl
      have hwx : Spec.wrap x = x + 100000#32 := by
        unfold Spec.wrap Scalar.select
        exact if_pos hc
      rw [hwx, BitVec.toInt_add, hk, Int.bmod_eq_of_le (by omega) (by omega)]
      omega
    · have hc : ¬ IntOp.cmpi .slt x 0#32 = 1#1 := by
        show ¬ BitVec.ofBool (decide (x.toInt < (0#32 : BitVec 32).toInt)) = 1#1
        rw [h0, decide_eq_false hneg]; decide
      have hwx : Spec.wrap x = x := by
        unfold Spec.wrap Scalar.select
        exact if_neg hc
      rw [hwx]
      omega
  constructor
  · show BitVec.ofBool (decide ((0#32 : BitVec 32).toInt ≤ (Spec.wrap x).toInt)) = 1#1
    rw [h0, decide_eq_true hw.1]; rfl
  · show BitVec.ofBool (decide ((Spec.wrap x).toInt ≤ (99999#32 : BitVec 32).toInt)) = 1#1
    rw [h9, decide_eq_true hw.2]; rfl

/-- A conjunction of ones, folded from one, is one. -/
private theorem foldl_andi_ones {ι : Type} (f : ι → BitVec 1) (hf : ∀ i, f i = 1#1) :
    ∀ l : List ι, l.foldl (fun r i => IntOp.andi r (f i)) 1#1 = 1#1
  | [] => rfl
  | a :: l => by
    have h11 : IntOp.andi (1#1) (1#1) = 1#1 := by decide
    rw [List.foldl_cons, hf a, h11]
    exact foldl_andi_ones f hf l

/-! ### The look-up of table rows at a list of words, as one function of the list and the table -/

/-- Each word of the list, counted from the end of the table when negative. -/
private def wrapList (v : IVec S600000 32) : IVec S600000 32 :=
  select (cmpi .slt v (broadcastInDim S600000 ![] bcast_S_S600000 (constantI S_ 32 0#32)))
    (addi v (broadcastInDim S600000 ![] bcast_S_S600000 (constantI S_ 32 100000#32))) v

/-- The wrapped list as a column. -/
private def wrapCol (v : IVec S600000 32) : IVec S600000x1 32 :=
  broadcastInDim S600000x1 ![0] bcast_S600000_S600000x1_0 (wrapList v)

/-- Per list position: does the wrapped word name a row of the table? -/
private def inTable (v : IVec S600000 32) : IVec S600000x1 1 :=
  andi (cmpi .sge (wrapCol v) (broadcastInDim S600000x1 ![] bcast_S_S600000x1 (constantI S_ 32 0#32)))
    (cmpi .sle (wrapCol v) (broadcastInDim S600000x1 ![0, 1] bcast_S1x1_S600000x1_0_1
      (broadcastInDim S1x1 ![1] bcast_S1_S1x1_1 (constantI S1 32 99999#32))))

/-- The look-up: where the wrapped word names a row, that row of the table; elsewhere a filler. -/
private def lookUp (v : IVec S600000 32) (ps : S100000x128.Idx → EReal) : S600000x128.Idx → EReal :=
  select
    (broadcastInDim S600000x128 ![0] bcast_S600000_S600000x128_0
      (Host.reduce IntOp.andi (inTable v) (constantI S_ 1 1#1) reducesTo_S600000x1_S600000_d1 h_S_))
    (Host.gather gather_S100000x128_S600000x1_S600000x128_1_0_n_n_0_1_1128 ps (wrapCol v))
    (broadcastInDim S600000x128 ![] bcast_S_S600000x128 (constant (F := Ideal) S_ .f32 0x7FC00000#32))

private theorem wrapList_apply (v : IVec S600000 32) (e : Fin 600000) :
    wrapList v (ix1 e) = Spec.wrap (v (ix1 e)) := rfl

private theorem wrapCol_apply (v : IVec S600000 32) (e : Fin 600000) :
    wrapCol v (ix2 e (0 : Fin 1)) = Spec.wrap (v (ix1 e)) := by
  unfold wrapCol
  refine (broadcastInDim_apply _ _ (wrapList v) (ix2 e (0 : Fin 1)) (ix1 e) (fun a => ?_)).trans (wrapList_apply v e)
  match a with
  | ⟨0, _⟩ =>
    show e.val = if (600000 : ℕ) = 1 then 0 else e.val
    rw [if_neg (by decide)]

/-- Where every wrapped word names a row, the test holds at every index of the column. -/
private theorem inTable_one (v : IVec S600000 32)
    (hin : ∀ e : Fin 600000, -100000 ≤ (v (ix1 e)).toInt ∧ (v (ix1 e)).toInt < 100000) (i : S600000x1.Idx) :
    inTable v i = 1#1 := by
  obtain ⟨p, z, rfl⟩ : ∃ (p : Fin 600000) (z : Fin 1), i = ix2 p z := ⟨i 0, i 1, eq_ix2 i⟩
  obtain rfl : z = 0 := Subsingleton.elim _ _
  have hr := wrap_inRange (v (ix1 p)) (hin p).1 (hin p).2
  show IntOp.andi (IntOp.cmpi .sge (wrapCol v (ix2 p (0 : Fin 1))) 0#32)
      (IntOp.cmpi .sle (wrapCol v (ix2 p (0 : Fin 1))) 99999#32) = 1#1
  rw [wrapCol_apply, hr.1, hr.2]
  decide

private theorem lookUp_apply (v : IVec S600000 32) (ps : S100000x128.Idx → EReal)
    (hin : ∀ e : Fin 600000, -100000 ≤ (v (ix1 e)).toInt ∧ (v (ix1 e)).toInt < 100000)
    (e : Fin 600000) (q : Fin 128) :
    lookUp v ps (ix2 e q) = ps (ix2 (Spec.clampRow (Spec.wrap (v (ix1 e)))) q) := by
  -- the test's bit at the edge
  have hbit : broadcastInDim S600000x128 ![0] bcast_S600000_S600000x128_0
      (Host.reduce IntOp.andi (inTable v) (constantI S_ 1 1#1) reducesTo_S600000x1_S600000_d1 h_S_) (ix2 e q) = 1#1 := by
    refine (broadcastInDim_apply _ _ _ (ix2 e q) (ix1 e) (fun a => ?_)).trans ?_
    · match a with
      | ⟨0, _⟩ =>
        show e.val = if (600000 : ℕ) = 1 then 0 else e.val
        rw [if_neg (by decide)]
    · rw [Host.reduce_eq_foldl]
      exact foldl_andi_ones (inTable v) (inTable_one v hin) _
  unfold lookUp
  rw [select_apply, hbit, select_one]
  show Host.gather (rowGatherDims 100000 600000 128 gather_S100000x128_S600000x1_S600000x128_1_0_n_n_0_1_1128_wf)
    ps (wrapCol v) (ix2 e q) = _
  rw [rowGather_apply (by decide) _ ps (wrapCol v) e q]
  refine congrArg (fun r : Fin 100000 => ps (ix2 r q)) (Fin.ext ?_)
  show min (wrapCol v (ix2 e (0 : Fin 1))).toInt.toNat (100000 - 1) = min (Spec.wrap (v (ix1 e))).toInt.toNat (100000 - 1)
  rw [wrapCol_apply]

/-- Entering the first region: the node features as launched, the sender and the receiver band as rows of the
    message weights. -/
theorem V1_H (c : Dev nD) : aH (V1 m ρ) c = mH m c := by
  show W1 m ρ c (Proc.devRef .tc main_arg0) = _
  refine (StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))).trans ?_
  rfl

/-- The three bands as the first stretch cuts them: rows 0–127, 128–255, 256–383 of the message weights. -/
private theorem W1_v4 (c : Dev nD) : (aWs (V1 m ρ) c : S128x128.Idx → EReal)
    = extractStridedSlice S128x128 ![0, 0] (mWm m c) slices_S384x128_S128x128_0_0 := by
  show StableHlo.after hostOps0 (W0 m ρ c) (Proc.devRef .tc main_v4) = _
  after_results
private theorem W1_v5 (c : Dev nD) : (aWr (V1 m ρ) c : S128x128.Idx → EReal)
    = extractStridedSlice S128x128 ![128, 0] (mWm m c) slices_S384x128_S128x128_128_0 := by
  show StableHlo.after hostOps0 (W0 m ρ c) (Proc.devRef .tc main_v5) = _
  after_results
private theorem W1_v6 (c : Dev nD) : (aWa (V1 m ρ) c : S128x128.Idx → EReal)
    = extractStridedSlice S128x128 ![256, 0] (mWm m c) slices_S384x128_S128x128_256_0 := by
  show StableHlo.after hostOps0 (W0 m ρ c) (Proc.devRef .tc main_v6) = _
  after_results

theorem V1_Ws (c : Dev nD) (j q : Fin 128) : aWs (V1 m ρ) c (ix2 j q) = mWm m c (ix2 (Spec.r0 j) q) := by
  rw [W1_v4]
  refine extractStridedSlice_apply _ _ _ (ix2 j q) (ix2 (Spec.r0 j) q) (fun a => ?_)
  match a with
  | ⟨0, _⟩ => show j.val = 0 + j.val; omega
  | ⟨1, _⟩ => show q.val = 0 + q.val; omega
theorem V1_Wr (c : Dev nD) (j q : Fin 128) : aWr (V1 m ρ) c (ix2 j q) = mWm m c (ix2 (Spec.r1 j) q) := by
  rw [W1_v5]
  refine extractStridedSlice_apply _ _ _ (ix2 j q) (ix2 (Spec.r1 j) q) (fun a => ?_)
  match a with
  | ⟨0, _⟩ => show 128 + j.val = 128 + j.val; rfl
  | ⟨1, _⟩ => show q.val = 0 + q.val; omega

/-- Entering the second region: the edge features as launched, the edge band as rows of the message weights, and,
    where every sender word is in the table's range, each edge's handed-in row the projected row of its sender. -/
theorem V3_Ea (c : Dev nD) : aEa (V3 m ρ) c = mEa m c := by
  show W3 m ρ c (Proc.devRef .tc main_arg2) = _
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl
theorem V3_Wa (c : Dev nD) (j q : Fin 128) : aWa (V3 m ρ) c (ix2 j q) = mWm m c (ix2 (Spec.r2 j) q) := by
  have e : (aWa (V3 m ρ) c : S128x128.Idx → EReal) = aWa (V1 m ρ) c :=
    calc W3 m ρ c (Proc.devRef .tc main_v6)
      _ = W2 m ρ c (Proc.devRef .tc main_v6) := StableHlo.after_of_forall_not_mem (b := Proc.devRef .tc main_v6) _ _ (List.forall_iff_forall_mem.mp (by
            simp only [hostOps1, List.Forall, StableHlo.nullary_writes, StableHlo.unary_writes, StableHlo.binary_writes, StableHlo.ternary_writes, Finset.mem_singleton]
            repeat' apply And.intro
            all_goals exact StableHlo.devRef_ne_of_ne (by decide)))
      _ = W1 m ρ c (Proc.devRef .tc main_v6) := W2_of_ne m ρ c main_v6 (by decide)
  rw [e, W1_v6]
  refine extractStridedSlice_apply _ _ _ (ix2 j q) (ix2 (Spec.r2 j) q) (fun a => ?_)
  match a with
  | ⟨0, _⟩ => show 256 + j.val = 256 + j.val; rfl
  | ⟨1, _⟩ => show q.val = 0 + q.val; omega

/-- The sender list entering the second region: position `e` holds the edge list's entry `(0, e)`. -/
private theorem W2_send (c : Dev nD) (e : Fin 600000) : aSend (V2 m ρ) c (ix1 e) = mEi m c (ix2 (0 : Fin 2) e) := by
  have hs : (aSend (V2 m ρ) c : S600000.Idx → BitVec 32)
      = shapeCast S600000 (extractStridedSlice S1x600000 ![0, 0] (mEi m c) slices_S2x600000_S1x600000_0_0)
          shapeCasts_S1x600000_S600000 := by
    show W2 m ρ c (Proc.devRef .tc main_v1) = _
    rw [W2_of_ne m ρ c main_v1 (by decide)]
    show StableHlo.after hostOps0 (W0 m ρ c) (Proc.devRef .tc main_v1) = _
    after_results
    rfl
  rw [hs]
  refine (shapeCast_apply _ _ (ix1 e) (ix2 (0 : Fin 1) e) ?_).trans ?_
  · rw [Shape.rowMajor_val_two, Shape.rowMajor_val_one]
    show (0 : ℕ) * 600000 + e.val = e.val
    omega
  · refine extractStridedSlice_apply _ _ _ (ix2 (0 : Fin 1) e) (ix2 (0 : Fin 2) e) (fun a => ?_)
    match a with
    | ⟨0, _⟩ => rfl
    | ⟨1, _⟩ => show e.val = 0 + e.val; omega

theorem V3_Psg (c : Dev nD)
    (hidx : ∀ e : Fin 600000, -100000 ≤ (mEi m c (ix2 (0 : Fin 2) e)).toInt ∧ (mEi m c (ix2 (0 : Fin 2) e)).toInt < 100000)
    (e : Fin 600000) (q : Fin 128) :
    aPsg (V3 m ρ) c (ix2 e q) = aPs (V2 m ρ) c (ix2 (Spec.sendRow (mEi m c) e) q) := by
  have e8 : (aPsg (V3 m ρ) c : S600000x128.Idx → EReal) = lookUp (aSend (V2 m ρ) c) (aPs (V2 m ρ) c) := by
    show StableHlo.after hostOps1 (W2 m ρ c) (Proc.devRef .tc main_v8) = _
    after_results_simp
    simp only [StableHlo.TRef.ofBuf, StableHlo.TRef.toBuf, cast_eq]
    unfold lookUp inTable wrapCol wrapList
    rfl
  rw [e8, lookUp_apply _ _ (fun e' => by rw [W2_send]; exact hidx e') e q, W2_send]
  rfl

end Cert.KernelIdeal.Hand

end
-- ==== Proof.HostB.lean ====
/-
  The host operations before the third region: the edge contributions summed per receiving node, the count of received edges, and the operands cut or reshaped from the arguments.
-/
import proofs.«405364_j51170240364728_3_alg».proof.Proof.Gen.KernelIdeal.Frame
import proofs.«405364_j51170240364728_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405364_j51170240364728_3_alg».proof.Proof.KArr
import proofs.«405364_j51170240364728_3_alg».proof.Proof.LibRows
import Idealize.ShloMosaic.Lib.StableHlo.Run
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-! ### A scatter-add into a list, read at an index -/

/-- The dimension numbers of a scatter into a list: operand `[N]`, scatter indices `[E, 1]`, updates `[E]`
    (no window axis; the operand's one axis is the scattered one). -/
private abbrev listScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where the update at position `e` lands: at `n` exactly when the number at `e`, read signed, is `n`. -/
private theorem listScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (listScatterDims N E wf).resultIdx? (ix1 e) idx = some (ix1 n)
      ↔ (idx (ix2 e (0 : Fin 1))).toInt = (n.val : ℤ) := by
  have hs : (listScatterDims N E wf).start (ix1 e) idx (0 : Fin 1) = (idx (ix2 e (0 : Fin 1))).toInt := by
    unfold ScatterDims.start
    rw [dif_pos (show (0 : Fin 1) ∈ (listScatterDims N E wf).scatterDimsToOperandDims from List.mem_singleton.mpr rfl)]
    have hsi : (listScatterDims N E wf).siIdx (ix1 e) ⟨List.idxOf (0 : Fin 1) (listScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (listScatterDims N E wf).window (ix1 e) (0 : Fin 1) = 0 := by
    unfold ScatterDims.window
    rw [dif_neg (show (0 : Fin 1) ∉ (listScatterDims N E wf).sKept by
      show (0 : Fin 1) ∉ ([] : List (Fin 1)); exact List.not_mem_nil)]
  constructor
  · intro h
    unfold ScatterDims.resultIdx? at h
    split at h
    · have h' := Option.some.inj h
      have h0 : ((listScatterDims N E wf).start (ix1 e) idx (0 : Fin 1) + ((listScatterDims N E wf).window (ix1 e) (0 : Fin 1) : ℤ)).toNat = n.val :=
        congrArg (fun f : (⟨1, ![N]⟩ : Shape).Idx => (f 0).val) h'
      rename_i hb
      have hb0 := (hb 0).1
      rw [hs, hw] at h0 hb0
      omega
    · exact absurd h (by simp)
  · intro hrow
    unfold ScatterDims.resultIdx?
    have hb : ∀ a : Fin 1, 0 ≤ (listScatterDims N E wf).start (ix1 e) idx a + ((listScatterDims N E wf).window (ix1 e) a : ℤ)
        ∧ (listScatterDims N E wf).start (ix1 e) idx a + ((listScatterDims N E wf).window (ix1 e) a : ℤ) < ((⟨1, ![N]⟩ : Shape).size a : ℤ) := by
      intro a
      match a with
      | ⟨0, _⟩ =>
        show 0 ≤ (listScatterDims N E wf).start (ix1 e) idx (0 : Fin 1) + ((listScatterDims N E wf).window (ix1 e) (0 : Fin 1) : ℤ)
          ∧ (listScatterDims N E wf).start (ix1 e) idx (0 : Fin 1) + ((listScatterDims N E wf).window (ix1 e) (0 : Fin 1) : ℤ) < (N : ℤ)
        rw [hs, hw, hrow]
        have := n.isLt
        omega
    rw [dif_pos hb]
    congr 1
    funext a
    refine Fin.ext ?_
    match a with
    | ⟨0, _⟩ =>
      show ((listScatterDims N E wf).start (ix1 e) idx (0 : Fin 1) + ((listScatterDims N E wf).window (ix1 e) (0 : Fin 1) : ℤ)).toNat = n.val
      rw [hs, hw, hrow]
      omega

/-- A sum over a rank-1 index set is the sum over its one coordinate. -/
private theorem sum_idx1 {M : Type*} [AddCommMonoid M] {n : ℕ} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    fun i => congrArg f (eq_ix1 i)

/-- THE SCATTER-ADD INTO A LIST READ AT `n`, at the ideal values: with operand `x : [N]`, numbers `idx : [E, 1]` and
    updates `u : [E]`, the result at `n` is `x n + ∑ u e` over the positions `e` whose number `idx[e, 0]`, read
    signed (and not clamped), is `n`; an update whose number names no entry of the list adds to none. -/
private theorem listScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (listScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (listScatterDims N E wf) x idx upd (ix1 n) = _
  unfold Ideal.hostScatterAdd
  congr 1
  rw [Finset.sum_filter, sum_idx1, Finset.sum_filter]
  refine Finset.sum_congr rfl fun e _ => ?_
  simp only [listScatter_resultIdx]

/-! ### The buffers the third stretch of host operations reads, traced back to the launch -/

variable (m : (ℓ : Loc nD τ sig) → Buf (Elt Ideal) ℓ) (ρ : Dev nD → PrngReg)

/-- No operation of the stretch writes the buffer: each operation's one result buffer is another reference. -/
local macro "stretch_keeps" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The message bias, the update weights and the update bias are, after the second region, still as launched:
    no host operation writes an argument and neither of the first two regions has one of these three among its arrays. -/
private theorem V4_Bm (c : Dev nD) : aBm (V4 m ρ) c = mBm m c :=
  calc W4 m ρ c (Proc.devRef .tc main_arg4)
    _ = W3 m ρ c (Proc.devRef .tc main_arg4) := W4_of_ne m ρ c main_arg4 (by decide)
    _ = W2 m ρ c (Proc.devRef .tc main_arg4) := by stretch_keeps
    _ = W1 m ρ c (Proc.devRef .tc main_arg4) := W2_of_ne m ρ c main_arg4 (by decide)
    _ = W0 m ρ c (Proc.devRef .tc main_arg4) := by stretch_keeps
    _ = m ((c : Thread nD τ).loc main_arg4) := rfl
private theorem V4_Wu (c : Dev nD) : aWu (V4 m ρ) c = mWu m c :=
  calc W4 m ρ c (Proc.devRef .tc main_arg5)
    _ = W3 m ρ c (Proc.devRef .tc main_arg5) := W4_of_ne m ρ c main_arg5 (by decide)
    _ = W2 m ρ c (Proc.devRef .tc main_arg5) := by stretch_keeps
    _ = W1 m ρ c (Proc.devRef .tc main_arg5) := W2_of_ne m ρ c main_arg5 (by decide)
    _ = W0 m ρ c (Proc.devRef .tc main_arg5) := by stretch_keeps
    _ = m ((c : Thread nD τ).loc main_arg5) := rfl
private theorem V4_Bu (c : Dev nD) : aBu (V4 m ρ) c = mBu m c :=
  calc W4 m ρ c (Proc.devRef .tc main_arg6)
    _ = W3 m ρ c (Proc.devRef .tc main_arg6) := W4_of_ne m ρ c main_arg6 (by decide)
    _ = W2 m ρ c (Proc.devRef .tc main_arg6) := by stretch_keeps
    _ = W1 m ρ c (Proc.devRef .tc main_arg6) := W2_of_ne m ρ c main_arg6 (by decide)
    _ = W0 m ρ c (Proc.devRef .tc main_arg6) := by stretch_keeps
    _ = m ((c : Thread nD τ).loc main_arg6) := rfl

/-- The receiver list, after the second region, is still what the first stretch of host operations made it:
    row 1 of the edge list as launched, as a list. -/
private theorem V4_Rec (c : Dev nD) (e : Fin 600000) : aRec (V4 m ρ) c (ix1 e) = mEi m c (ix2 (1 : Fin 2) e) := by
  have hk : aRec (V4 m ρ) c = aRec (V1 m ρ) c :=
    calc W4 m ρ c (Proc.devRef .tc main_v3)
      _ = W3 m ρ c (Proc.devRef .tc main_v3) := W4_of_ne m ρ c main_v3 (by decide)
      _ = W2 m ρ c (Proc.devRef .tc main_v3) := by stretch_keeps
      _ = W1 m ρ c (Proc.devRef .tc main_v3) := W2_of_ne m ρ c main_v3 (by decide)
  have h1 : aRec (V1 m ρ) c = shapeCast S600000
      (extractStridedSlice S1x600000 ![1, 0] (mEi m c) slices_S2x600000_S1x600000_1_0) shapeCasts_S1x600000_S600000 := by
    show StableHlo.after hostOps0 (W0 m ρ c) (Proc.devRef .tc main_v3) = _
    after_results
    rfl
  refine (congrFun (hk.trans h1) (ix1 e)).trans ?_
  refine (shapeCast_apply _ _ (ix1 e) (ix2 (0 : Fin 1) e) ?_).trans ?_
  · rw [Shape.rowMajor_val_two, Shape.rowMajor_val_one]
    show 0 * 600000 + e.val = e.val
    omega
  refine extractStridedSlice_apply _ _ _ (ix2 (0 : Fin 1) e) (ix2 (1 : Fin 2) e) fun a => ?_
  match a with
  | ⟨0, _⟩ => rfl
  | ⟨1, _⟩ => show e.val = 0 + e.val; omega

/-- The receiver list as a column reads, at `(e, 0)`, the edge list at `(1, e)`. -/
private theorem recCol (c : Dev nD) (e : Fin 600000) :
    broadcastInDim S600000x1 ![0] bcast_S600000_S600000x1_0 (aRec (V4 m ρ) c) (ix2 e (0 : Fin 1))
      = mEi m c (ix2 (1 : Fin 2) e) := by
  refine (broadcastInDim_apply _ _ _ (ix2 e (0 : Fin 1)) (ix1 e) fun a => ?_).trans (V4_Rec m ρ c e)
  match a with
  | ⟨0, _⟩ => exact (if_neg (show ¬ (600000 : ℕ) = 1 by decide)).symm

/-! ### What the third region finds -/

/-- Entering the third region: the node features as launched; the receiver projection as the first region left it. -/
theorem V5_H (c : Dev nD) : aH (V5 m ρ) c = mH m c :=
  calc W5 m ρ c (Proc.devRef .tc main_arg0)
    _ = W4 m ρ c (Proc.devRef .tc main_arg0) := by stretch_keeps
    _ = W3 m ρ c (Proc.devRef .tc main_arg0) := W4_of_ne m ρ c main_arg0 (by decide)
    _ = W2 m ρ c (Proc.devRef .tc main_arg0) := by stretch_keeps
    _ = W1 m ρ c (Proc.devRef .tc main_arg0) :=
        (W2_arr m ρ c 0).trans (((dat0 (V1 m ρ) c).arrAt_in 0 rfl _).trans (A_eq0 (V1 m ρ) c 0))
    _ = W0 m ρ c (Proc.devRef .tc main_arg0) := by stretch_keeps
    _ = m ((c : Thread nD τ).loc main_arg0) := rfl
theorem V5_Pr (c : Dev nD) : aPr (V5 m ρ) c = aPr (V2 m ρ) c :=
  calc W5 m ρ c (Proc.devRef .tc main_v7_1)
    _ = W4 m ρ c (Proc.devRef .tc main_v7_1) := by stretch_keeps
    _ = W3 m ρ c (Proc.devRef .tc main_v7_1) := W4_of_ne m ρ c main_v7_1 (by decide)
    _ = W2 m ρ c (Proc.devRef .tc main_v7_1) := by stretch_keeps
/-- The raw aggregate: the edge contributions, as the second region left them, summed over the edges the node receives. -/
theorem V5_Agg (c : Dev nD) (n : Fin 100000) (q : Fin 128) :
    aAgg (V5 m ρ) c (ix2 n q) = Spec.zero32 + ∑ e ∈ Spec.inbox (mEi m c) n, aMsg (V4 m ρ) c (ix2 e q) := by
  have hterm : aAgg (V5 m ρ) c = Host.scatterAdd (F := Ideal) scatter_S100000x128_S600000x1_S600000x128_1_0_0_1
      (broadcastInDim S100000x128 ![] bcast_S_S100000x128 (constant (F := Ideal) S_ .f32 0x00000000#32))
      (broadcastInDim S600000x1 ![0] bcast_S600000_S600000x1_0 (aRec (V4 m ρ) c)) (aMsg (V4 m ρ) c) := by
    show StableHlo.after hostOps2 (W4 m ρ c) (Proc.devRef .tc main_v12) = _
    after_results
  refine (congrFun hterm (ix2 n q)).trans ?_
  refine (rowScatterAdd_apply scatter_S100000x128_S600000x1_S600000x128_1_0_0_1_wf _ _ _ n q).trans ?_
  refine congrArg₂ (· + ·) rfl ?_
  unfold Spec.inbox
  refine Finset.sum_congr (Finset.filter_congr fun e _ => ?_) fun _ _ => rfl
  rw [recCol m ρ c e]
/-- The count column: one per received edge. -/
theorem V5_Deg (c : Dev nD) (n : Fin 100000) :
    aDeg (V5 m ρ) c (ix2 n (0 : Fin 1)) = Spec.zero32 + ∑ _e ∈ Spec.inbox (mEi m c) n, Spec.one32 := by
  have hterm : aDeg (V5 m ρ) c = shapeCast S100000x1
      (Host.scatterAdd (F := Ideal) scatter_S100000_S600000x1_S600000_n_0_0_1
        (broadcastInDim S100000 ![] bcast_S_S100000 (constant (F := Ideal) S_ .f32 0x00000000#32))
        (broadcastInDim S600000x1 ![0] bcast_S600000_S600000x1_0 (aRec (V4 m ρ) c))
        (broadcastInDim S600000 ![] bcast_S_S600000 (constant (F := Ideal) S_ .f32 0x3F800000#32)))
      shapeCasts_S100000_S100000x1 := by
    show StableHlo.after hostOps2 (W4 m ρ c) (Proc.devRef .tc main_v17) = _
    after_results
    rfl
  refine (congrFun hterm (ix2 n (0 : Fin 1))).trans ?_
  refine (shapeCast_apply _ _ (ix2 n (0 : Fin 1)) (ix1 n) ?_).trans ?_
  · rw [Shape.rowMajor_val_one, Shape.rowMajor_val_two]
    show n.val = n.val * 1 + 0
    omega
  refine (listScatterAdd_apply scatter_S100000_S600000x1_S600000_n_0_0_1_wf _ _ _ n).trans ?_
  refine congrArg₂ (· + ·) rfl ?_
  unfold Spec.inbox
  refine Finset.sum_congr (Finset.filter_congr fun e _ => ?_) fun _ _ => rfl
  rw [recCol m ρ c e]
/-- The two biases as rows, the two bands of the update weights. -/
theorem V5_BmRow (c : Dev nD) (q : Fin 128) : aBmRow (V5 m ρ) c (ix2 (0 : Fin 1) q) = mBm m c (ix1 q) := by
  have hterm : aBmRow (V5 m ρ) c = shapeCast S1x128 (aBm (V4 m ρ) c) shapeCasts_S128_S1x128 := by
    show StableHlo.after hostOps2 (W4 m ρ c) (Proc.devRef .tc main_v18) = _
    after_results
    rfl
  refine (congrFun hterm (ix2 (0 : Fin 1) q)).trans ?_
  refine (shapeCast_apply _ _ (ix2 (0 : Fin 1) q) (ix1 q) ?_).trans (congrFun (V4_Bm m ρ c) (ix1 q))
  rw [Shape.rowMajor_val_one, Shape.rowMajor_val_two]
  show q.val = 0 * 128 + q.val
  omega
theorem V5_Wuh (c : Dev nD) (j q : Fin 128) : aWuh (V5 m ρ) c (ix2 j q) = mWu m c (ix2 (Spec.u0 j) q) := by
  have hterm : aWuh (V5 m ρ) c
      = extractStridedSlice S128x128 ![0, 0] (aWu (V4 m ρ) c) slices_S256x128_S128x128_0_0 := by
    show StableHlo.after hostOps2 (W4 m ρ c) (Proc.devRef .tc main_v19) = _
    after_results
  refine (congrFun hterm (ix2 j q)).trans ?_
  refine (extractStridedSlice_apply _ _ _ (ix2 j q) (ix2 (Spec.u0 j) q) fun a => ?_).trans
    (congrFun (V4_Wu m ρ c) (ix2 (Spec.u0 j) q))
  match a with
  | ⟨0, _⟩ => show j.val = 0 + j.val; omega
  | ⟨1, _⟩ => show q.val = 0 + q.val; omega
theorem V5_Wum (c : Dev nD) (j q : Fin 128) : aWum (V5 m ρ) c (ix2 j q) = mWu m c (ix2 (Spec.u1 j) q) := by
  have hterm : aWum (V5 m ρ) c
      = extractStridedSlice S128x128 ![128, 0] (aWu (V4 m ρ) c) slices_S256x128_S128x128_128_0 := by
    show StableHlo.after hostOps2 (W4 m ρ c) (Proc.devRef .tc main_v20) = _
    after_results
  refine (congrFun hterm (ix2 j q)).trans ?_
  refine (extractStridedSlice_apply _ _ _ (ix2 j q) (ix2 (Spec.u1 j) q) fun a => ?_).trans
    (congrFun (V4_Wu m ρ c) (ix2 (Spec.u1 j) q))
  match a with
  | ⟨0, _⟩ => rfl
  | ⟨1, _⟩ => show q.val = 0 + q.val; omega
theorem V5_BuRow (c : Dev nD) (q : Fin 128) : aBuRow (V5 m ρ) c (ix2 (0 : Fin 1) q) = mBu m c (ix1 q) := by
  have hterm : aBuRow (V5 m ρ) c = shapeCast S1x128 (aBu (V4 m ρ) c) shapeCasts_S128_S1x128 := by
    show StableHlo.after hostOps2 (W4 m ρ c) (Proc.devRef .tc main_v21) = _
    after_results
    rfl
  refine (congrFun hterm (ix2 (0 : Fin 1) q)).trans ?_
  refine (shapeCast_apply _ _ (ix2 (0 : Fin 1) q) (ix1 q) ?_).trans (congrFun (V4_Bu m ρ c) (ix1 q))
  rw [Shape.rowMajor_val_one, Shape.rowMajor_val_two]
  show q.val = 0 * 128 + q.val
  omega

end Cert.KernelIdeal.Hand

end
-- ==== Proof.KValue.lean ====
/-
  The kernel program's result array, read back through its three regions and the host operations between them: it is the restructured computation of the launched arguments.
-/
import proofs.«405364_j51170240364728_3_alg».proof.Proof.Gen.KernelIdeal.Frame
import proofs.«405364_j51170240364728_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«405364_j51170240364728_3_alg».proof.Proof.KArr
import proofs.«405364_j51170240364728_3_alg».proof.Proof.Reg0
import proofs.«405364_j51170240364728_3_alg».proof.Proof.Reg1
import proofs.«405364_j51170240364728_3_alg».proof.Proof.Reg2
import proofs.«405364_j51170240364728_3_alg».proof.Proof.HostA
import proofs.«405364_j51170240364728_3_alg».proof.Proof.HostB
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- What the projection region leaves: the node features through the sender band. -/
theorem Ps_V2 (c : Dev nD) (p : Fin 100000) (q : Fin 128) :
    aPs (V2 m ρ) c (ix2 p q) = Spec.Ps (mH m c) (mWm m c) p q := by
  have e : aPs (V2 m ρ) c = fin0_3 (V1 m ρ) c := W2_arr m ρ c 3
  rw [e, final0_3, V1_H]
  unfold Spec.Ps
  exact Finset.sum_congr rfl fun j _ => by rw [V1_Ws]

/-- … and through the receiver band. -/
theorem Pr_V2 (c : Dev nD) (p : Fin 100000) (q : Fin 128) :
    aPr (V2 m ρ) c (ix2 p q) = Spec.Pr (mH m c) (mWm m c) p q := by
  have e : aPr (V2 m ρ) c = fin0_4 (V1 m ρ) c := W2_arr m ρ c 4
  rw [e, final0_4, V1_H]
  unfold Spec.Pr
  exact Finset.sum_congr rfl fun j _ => by rw [V1_Wr]

/-- What the edge region leaves, where every sender word is in the table's range: each edge's contribution. -/
theorem Msg_V4 (c : Dev nD)
    (hidx : ∀ e : Fin 600000, -100000 ≤ (mEi m c (ix2 (0 : Fin 2) e)).toInt ∧ (mEi m c (ix2 (0 : Fin 2) e)).toInt < 100000)
    (e : Fin 600000) (q : Fin 128) :
    aMsg (V4 m ρ) c (ix2 e q) = Spec.msgK (mH m c) (mEi m c) (mEa m c) (mWm m c) e q := by
  have e1 : aMsg (V4 m ρ) c = fin1_3 (V3 m ρ) c := W4_arr m ρ c 3
  rw [e1, final1_3, V3_Ea, V3_Psg m ρ c hidx, Ps_V2]
  unfold Spec.msgK
  refine congrArg₂ (· + ·) ?_ rfl
  exact Finset.sum_congr rfl fun j _ => by rw [V3_Wa]

/-- The result array after the run is the restructured computation of the launched arguments. -/
theorem out_value (c : Dev nD)
    (hidx : ∀ e : Fin 600000, -100000 ≤ (mEi m c (ix2 (0 : Fin 2) e)).toInt ∧ (mEi m c (ix2 (0 : Fin 2) e)).toInt < 100000)
    (n : Fin 100000) (q : Fin 128) :
    aOut (V6 m ρ) c (ix2 n q)
      = Spec.outK (mH m c) (mEi m c) (mEa m c) (mWm m c) (mBm m c) (mWu m c) (mBu m c) n q := by
  have e1 : aOut (V6 m ρ) c = fin2_8 (V5 m ρ) c := W6_arr m ρ c 8
  rw [e1, final2_8, V5_H, V5_Deg, V5_BuRow]
  unfold Spec.outK
  refine congrArg₂ (· + ·) (congrArg₂ (· + ·) ?_ ?_) rfl
  · exact Finset.sum_congr rfl fun j _ => by rw [V5_Wuh]
  · refine Finset.sum_congr rfl fun j _ => ?_
    rw [V5_Wum, V5_Agg, V5_Pr, Pr_V2, V5_BmRow]
    unfold Spec.aggFull Spec.aggK Spec.deg
    refine congrArg₂ (· * ·) (congrArg₂ (· + ·) (congrArg₂ (· + ·) (congrArg₂ (· + ·) rfl ?_) rfl) rfl) rfl
    exact Finset.sum_congr rfl fun e _ => Msg_V4 m ρ c hidx e j

end Cert.KernelIdeal.Hand

end
-- ==== Proof.RefValue.lean ====
/-
  The reference's result read index by index: it is the computation as first written (`Spec.outR`).
-/
import proofs.«405364_j51170240364728_3_alg».proof.Proof.Gen.ReferenceIdeal.Read
import proofs.«405364_j51170240364728_3_alg».proof.Proof.Spec
import proofs.«405364_j51170240364728_3_alg».proof.Proof.LibRows
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read

/-! ### The two rows of the edge list, as columns of row numbers

Row 0 (the senders) and row 1 (the receivers) of the edge list are cut out, flattened, and, for a look-up,
passed through the wrap of negative numbers; each is then stood up as a one-column array. Entry `(e, 0)` of the
column is the wrapped word of edge `e`; the column used for the aggregation is not wrapped. -/

private theorem idx_v9 (e : Fin 600000) : idx_main_v9 (ix2 e (0 : Fin 1)) = ix1 e :=
  funext fun a => Fin.ext (by match a with | ⟨0, _⟩ => rfl)

private theorem idx_v16 (e : Fin 600000) : idx_main_v16 (ix2 e (0 : Fin 1)) = ix1 e :=
  funext fun a => Fin.ext (by match a with | ⟨0, _⟩ => rfl)

private theorem idx_v24 (e : Fin 600000) : idx_main_v24 (ix2 e (0 : Fin 1)) = ix1 e :=
  funext fun a => Fin.ext (by match a with | ⟨0, _⟩ => rfl)

private theorem idx_v1 (e : Fin 600000) : idx_main_v1 (ix1 e) = ix2 (0 : Fin 1) e :=
  funext fun a => Fin.ext (by
    match a with
    | ⟨0, _⟩ => rfl
    | ⟨1, _⟩ => exact Nat.mod_eq_of_lt e.isLt)

private theorem idx_v3 (e : Fin 600000) : idx_main_v3 (ix1 e) = ix2 (0 : Fin 1) e :=
  funext fun a => Fin.ext (by
    match a with
    | ⟨0, _⟩ => rfl
    | ⟨1, _⟩ => exact Nat.mod_eq_of_lt e.isLt)

private theorem idx_v0 (e : Fin 600000) : idx_main_v0 (ix2 (0 : Fin 1) e) = ix2 (0 : Fin 2) e :=
  funext fun a => Fin.ext (by match a with | ⟨0, _⟩ => rfl | ⟨1, _⟩ => rfl)

private theorem idx_v2 (e : Fin 600000) : idx_main_v2 (ix2 (0 : Fin 1) e) = ix2 (1 : Fin 2) e :=
  funext fun a => Fin.ext (by match a with | ⟨0, _⟩ => rfl | ⟨1, _⟩ => rfl)

/-- The flattened sender row at `e`. -/
private theorem v1_at (x1 : S2x600000.Idx → BitVec 32) (e : Fin 600000) :
    (val_main_v1 (F := Ideal) x1 : S600000.Idx → BitVec 32) (ix1 e) = x1 (ix2 (0 : Fin 2) e) := by
  rw [val_main_v1_apply, idx_v1, val_main_v0_apply, idx_v0]

/-- The flattened receiver row at `e`. -/
private theorem v3_at (x1 : S2x600000.Idx → BitVec 32) (e : Fin 600000) :
    (val_main_v3 (F := Ideal) x1 : S600000.Idx → BitVec 32) (ix1 e) = x1 (ix2 (1 : Fin 2) e) := by
  rw [val_main_v3_apply, idx_v3, val_main_v2_apply, idx_v2]

/-- The sender column at `(e, 0)`: the wrapped sender word. -/
private theorem v9_at (x1 : S2x600000.Idx → BitVec 32) (e : Fin 600000) :
    (val_main_v9 (F := Ideal) x1 : S600000x1.Idx → BitVec 32) (ix2 e (0 : Fin 1))
      = Spec.wrap (x1 (ix2 (0 : Fin 2) e)) := by
  rw [val_main_v9_apply, idx_v9, val_main_v8_apply, val_main_v5_apply, val_main_v7_apply, val_main_v4_apply,
    val_main_v6_apply, val_main_c_apply, val_main_c_0_apply, v1_at]
  rfl

/-- The receiver column used for the look-up at `(e, 0)`: the wrapped receiver word. -/
private theorem v16_at (x1 : S2x600000.Idx → BitVec 32) (e : Fin 600000) :
    (val_main_v16 (F := Ideal) x1 : S600000x1.Idx → BitVec 32) (ix2 e (0 : Fin 1))
      = Spec.wrap (x1 (ix2 (1 : Fin 2) e)) := by
  rw [val_main_v16_apply, idx_v16, val_main_v15_apply, val_main_v12_apply, val_main_v14_apply, val_main_v11_apply,
    val_main_v13_apply, val_main_c_1_apply, val_main_c_2_apply, v3_at]
  rfl

/-- The receiver column used for the aggregation at `(e, 0)`: the receiver word as it is. -/
private theorem v24_at (x1 : S2x600000.Idx → BitVec 32) (e : Fin 600000) :
    (val_main_v24 (F := Ideal) x1 : S600000x1.Idx → BitVec 32) (ix2 e (0 : Fin 1)) = x1 (ix2 (1 : Fin 2) e) := by
  rw [val_main_v24_apply, idx_v24, v3_at]

/-! ### The looked-up rows -/

/-- Row `e` of the gathered sender features is the node row the sender word names. -/
private theorem v10_at (x0 : S100000x128.Idx → EReal) (x1 : S2x600000.Idx → BitVec 32) (e : Fin 600000) (c : Fin 128) :
    (val_main_v10 (F := Ideal) x0 x1 : S600000x128.Idx → EReal) (ix2 e c) = x0 (ix2 (Spec.sendRow x1 e) c) := by
  show Host.gather (rowGatherDims 100000 600000 128 _) x0 (val_main_v9 (F := Ideal) x1) (ix2 e c) = _
  rw [rowGather_apply (by decide)]
  refine congrArg (fun r : Fin 100000 => x0 (ix2 r c)) (Fin.ext ?_)
  show min (BitVec.toInt (val_main_v9 (F := Ideal) x1 (ix2 e (0 : Fin 1)))).toNat (100000 - 1) = _
  rw [v9_at]
  rfl

/-- Row `e` of the gathered receiver features is the node row the receiver word names. -/
private theorem v17_at (x0 : S100000x128.Idx → EReal) (x1 : S2x600000.Idx → BitVec 32) (e : Fin 600000) (c : Fin 128) :
    (val_main_v17 (F := Ideal) x0 x1 : S600000x128.Idx → EReal) (ix2 e c) = x0 (ix2 (Spec.recRow x1 e) c) := by
  show Host.gather (rowGatherDims 100000 600000 128 _) x0 (val_main_v16 (F := Ideal) x1) (ix2 e c) = _
  rw [rowGather_apply (by decide)]
  refine congrArg (fun r : Fin 100000 => x0 (ix2 r c)) (Fin.ext ?_)
  show min (BitVec.toInt (val_main_v16 (F := Ideal) x1 (ix2 e (0 : Fin 1)))).toNat (100000 - 1) = _
  rw [v16_at]
  rfl

/-! ### The stacked rows -/

/-- Three arrays of 128 columns laid side by side, read at column `k`: the first below 128, the second below 256,
    the third from 256 on. -/
private theorem cat3_read (y0 y1 y2 : S600000x128.Idx → EReal) (e : Fin 600000) (k : Fin 384) :
    concatenate S600000x384 1 [⟨S600000x128, y0⟩, ⟨S600000x128, y1⟩, ⟨S600000x128, y2⟩]
        concatenates_S600000x128_S600000x128_S600000x128_S600000x384_d1 (ix2 e k)
      = if h0 : k.val < 128 then y0 (ix2 e ⟨k.val, h0⟩)
        else if h1 : k.val < 256 then y1 (ix2 e ⟨k.val - 128, by omega⟩)
        else y2 (ix2 e ⟨k.val - 256, by have := k.isLt; omega⟩) := by
  by_cases h0 : k.val < 128
  · rw [dif_pos h0]
    exact concatenate_apply_piece 1 _ _ (ix2 e k) 0 (by show 0 < 3; omega) S600000x128 y0 rfl rfl 0 rfl (ix2 e ⟨k.val, h0⟩)
      (fun b hb => by
        match b with
        | ⟨0, _⟩ => rfl
        | ⟨1, _⟩ => exact absurd rfl hb)
      (by show 0 + k.val = k.val; omega)
  · rw [dif_neg h0]
    by_cases h1 : k.val < 256
    · rw [dif_pos h1]
      exact concatenate_apply_piece 1 _ _ (ix2 e k) 1 (by show 1 < 3; omega) S600000x128 y1 rfl rfl 128 rfl
        (ix2 e ⟨k.val - 128, by omega⟩)
        (fun b hb => by
          match b with
          | ⟨0, _⟩ => rfl
          | ⟨1, _⟩ => exact absurd rfl hb)
        (by show 128 + (k.val - 128) = k.val; omega)
    · rw [dif_neg h1]
      exact concatenate_apply_piece 1 _ _ (ix2 e k) 2 (by show 2 < 3; omega) S600000x128 y2 rfl rfl 256 rfl
        (ix2 e ⟨k.val - 256, by have := k.isLt; omega⟩)
        (fun b hb => by
          match b with
          | ⟨0, _⟩ => rfl
          | ⟨1, _⟩ => exact absurd rfl hb)
        (by show 256 + (k.val - 256) = k.val; omega)

/-- Two arrays of 128 columns laid side by side, read at column `k`. -/
private theorem cat2_read (y0 y1 : S100000x128.Idx → EReal) (n : Fin 100000) (k : Fin 256) :
    concatenate S100000x256 1 [⟨S100000x128, y0⟩, ⟨S100000x128, y1⟩]
        concatenates_S100000x128_S100000x128_S100000x256_d1 (ix2 n k)
      = if h0 : k.val < 128 then y0 (ix2 n ⟨k.val, h0⟩)
        else y1 (ix2 n ⟨k.val - 128, by have := k.isLt; omega⟩) := by
  by_cases h0 : k.val < 128
  · rw [dif_pos h0]
    exact concatenate_pair_apply_left 1 y0 y1 _ (ix2 n k) rfl (ix2 n ⟨k.val, h0⟩) (fun b => by
      match b with
      | ⟨0, _⟩ => rfl
      | ⟨1, _⟩ => rfl)
  · rw [dif_neg h0]
    exact concatenate_pair_apply_right 1 y0 y1 _ (ix2 n k) rfl rfl (ix2 n ⟨k.val - 128, by have := k.isLt; omega⟩)
      (fun b hb => by
        match b with
        | ⟨0, _⟩ => rfl
        | ⟨1, _⟩ => exact absurd rfl hb)
      (by show (k.val - 128) + 128 = k.val; omega)

/-- Edge `e`'s stacked row: sender features, receiver features, edge features. -/
private theorem v18_at (x0 : S100000x128.Idx → EReal) (x1 : S2x600000.Idx → BitVec 32) (x2 : S600000x128.Idx → EReal)
    (e : Fin 600000) (k : Fin 384) :
    (val_main_v18 (F := Ideal) x0 x1 x2 : S600000x384.Idx → EReal) (ix2 e k) = Spec.cat3 x0 x1 x2 e k := by
  unfold val_main_v18
  rw [cat3_read]
  unfold Spec.cat3
  by_cases h0 : k.val < 128
  · rw [dif_pos h0, dif_pos h0, v10_at]
  · rw [dif_neg h0, dif_neg h0]
    by_cases h1 : k.val < 256
    · rw [dif_pos h1, dif_pos h1, v17_at]
    · rw [dif_neg h1, dif_neg h1]

/-! ### Messages, aggregates, the result -/

/-- Edge `e`'s message: the stacked row through the message weights, plus the bias. -/
private theorem v22_at (x0 : S100000x128.Idx → EReal) (x1 : S2x600000.Idx → BitVec 32) (x2 : S600000x128.Idx → EReal)
    (x3 : S384x128.Idx → EReal) (x4 : S128.Idx → EReal) (e : Fin 600000) (q : Fin 128) :
    (val_main_v22 (F := Ideal) x0 x1 x2 x3 x4 : S600000x128.Idx → EReal) (ix2 e q)
      = Spec.msgR x0 x1 x2 x3 x4 e q := by
  have hl : ∀ k : Fin 384, lidx_main_v19 (ix2 e q) k = ix2 e k := fun k =>
    funext fun a => Fin.ext (by match a with | ⟨0, _⟩ => rfl | ⟨1, _⟩ => rfl)
  have hr : ∀ k : Fin 384, ridx_main_v19 (ix2 e q) k = ix2 k q := fun k =>
    funext fun a => Fin.ext (by match a with | ⟨0, _⟩ => rfl | ⟨1, _⟩ => rfl)
  have hb : idx_main_v20 (idx_main_v21 (ix2 e q)) = ix1 q :=
    funext fun a => Fin.ext (by match a with | ⟨0, _⟩ => rfl)
  rw [val_main_v22_apply, val_main_v19_apply, val_main_v21_apply, val_main_v20_apply, hb]
  simp only [hl, hr, v18_at, Ideal.addf_def]
  rfl

/-- Node `n`'s aggregate: the messages of the edges whose receiver word is `n`, summed from zero. -/
private theorem v25_at (x0 : S100000x128.Idx → EReal) (x1 : S2x600000.Idx → BitVec 32) (x2 : S600000x128.Idx → EReal)
    (x3 : S384x128.Idx → EReal) (x4 : S128.Idx → EReal) (n : Fin 100000) (q : Fin 128) :
    (val_main_v25 (F := Ideal) x0 x1 x2 x3 x4 : S100000x128.Idx → EReal) (ix2 n q)
      = Spec.aggR x0 x1 x2 x3 x4 n q := by
  show Host.scatterAdd (F := Ideal) (rowScatterDims 100000 600000 128 _) (val_main_v23 (F := Ideal))
    (val_main_v24 (F := Ideal) x1) (val_main_v22 (F := Ideal) x0 x1 x2 x3 x4) (ix2 n q) = _
  rw [rowScatterAdd_apply, val_main_v23_apply, val_main_cst_apply]
  simp only [v24_at, v22_at]
  rfl

/-- Node `n`'s stacked row: its features, its aggregate. -/
private theorem v26_at (x0 : S100000x128.Idx → EReal) (x1 : S2x600000.Idx → BitVec 32) (x2 : S600000x128.Idx → EReal)
    (x3 : S384x128.Idx → EReal) (x4 : S128.Idx → EReal) (n : Fin 100000) (k : Fin 256) :
    (val_main_v26 (F := Ideal) x0 x1 x2 x3 x4 : S100000x256.Idx → EReal) (ix2 n k)
      = Spec.cat2 x0 x1 x2 x3 x4 n k := by
  unfold val_main_v26
  rw [cat2_read]
  unfold Spec.cat2
  by_cases h0 : k.val < 128
  · rw [dif_pos h0, dif_pos h0]
  · rw [dif_neg h0, dif_neg h0, v25_at]

/-- The reference's last stage at node `n`, column `q`. -/
theorem ref_eq (x0 : S100000x128.Idx → EReal) (x1 : S2x600000.Idx → BitVec 32) (x2 : S600000x128.Idx → EReal)
    (x3 : S384x128.Idx → EReal) (x4 : S128.Idx → EReal) (x5 : S256x128.Idx → EReal) (x6 : S128.Idx → EReal)
    (n : Fin 100000) (q : Fin 128) :
    (val_main_v30 (F := Ideal) x0 x1 x2 x3 x4 x5 x6 : S100000x128.Idx → EReal) (ix2 n q)
      = Spec.outR x0 x1 x2 x3 x4 x5 x6 n q := by
  have hl : ∀ k : Fin 256, lidx_main_v27 (ix2 n q) k = ix2 n k := fun k =>
    funext fun a => Fin.ext (by match a with | ⟨0, _⟩ => rfl | ⟨1, _⟩ => rfl)
  have hr : ∀ k : Fin 256, ridx_main_v27 (ix2 n q) k = ix2 k q := fun k =>
    funext fun a => Fin.ext (by match a with | ⟨0, _⟩ => rfl | ⟨1, _⟩ => rfl)
  have hb : idx_main_v28 (idx_main_v29 (ix2 n q)) = ix1 q :=
    funext fun a => Fin.ext (by match a with | ⟨0, _⟩ => rfl)
  rw [val_main_v30_apply, val_main_v27_apply, val_main_v29_apply, val_main_v28_apply, hb]
  simp only [hl, hr, v26_at, Ideal.addf_def]
  rfl

end Cert.ReferenceIdeal.RefValue

end
-- ==== Proof.Algebra.lean ====
/-
  The two ways of writing the layer agree on finite inputs.

  The outer affine map is the same in both; only the aggregate differs. Splitting the stacked rows into their bands of
  128 turns the aggregate as first written into the sum, over the received edges, of
  (sender projection + receiver projection + edge band + bias). For a received edge the receiver row IS the node, so the
  receiver projection and the bias do not depend on the edge and leave the sum as (number of edges) times themselves.
  Sums of products distribute only over real numbers, so the identity is proved in ℝ and carried to the extended reals
  through the coercion, which commutes with finite sums, sums and products of reals.
-/
import proofs.«405364_j51170240364728_3_alg».proof.Proof.Spec
import Mathlib.Data.EReal.Basic
import Mathlib.Algebra.BigOperators.Ring.Finset
import Mathlib.Algebra.BigOperators.Fin
import Mathlib.Tactic.Ring
import Mathlib.Tactic.NormNum

noncomputable section

open scoped BigOperators
open Idealize.ShloMosaic Idealize.ShloMosaic.ValueIdx

namespace Cert.Spec

/-! ### The two constants -/

/-- The word `+0.0` denotes zero. -/
private theorem zero32_eq : zero32 = 0 := by
  unfold zero32
  simp [Ideal.ofBits, Ideal.ieee]

/-- The word `0x3F800000` (sign 0, exponent 127, fraction 0) denotes `2^23 · 2^(127 - 127 - 23) = 1`. -/
private theorem one32_eq : one32 = 1 := by
  unfold one32
  simp [Ideal.ofBits, Ideal.ieee, -EReal.coe_mul]
  norm_num

/-! ### The coercion of the reals and finite sums -/

/-- The coercion commutes with finite sums. -/
private theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum of products of entries of two arrays of real numbers is the coercion of the real sum of products. -/
private theorem dot_eq {ι κ₁ κ₂ : Type*} (s : Finset ι) (x : κ₁ → EReal) (y : κ₂ → EReal)
    (x' : κ₁ → ℝ) (y' : κ₂ → ℝ) (hx : ∀ i, x i = (x' i : EReal)) (hy : ∀ i, y i = (y' i : EReal))
    (u : ι → κ₁) (v : ι → κ₂) :
    ∑ j ∈ s, x (u j) * y (v j) = ((∑ j ∈ s, x' (u j) * y' (v j) : ℝ) : EReal) := by
  rw [coe_sum]
  exact Finset.sum_congr rfl (fun j _ => by rw [hx, hy, EReal.coe_mul])

/-! ### Splitting a stacked row into its bands -/

private theorem sum_add3 {M : Type*} [AddCommMonoid M] (g : Fin (128 + (128 + 128)) → M) :
    ∑ k, g k = ((∑ j : Fin 128, g (Fin.castAdd (128 + 128) j))
      + ∑ j : Fin 128, g (Fin.natAdd 128 (Fin.castAdd 128 j)))
      + ∑ j : Fin 128, g (Fin.natAdd 128 (Fin.natAdd 128 j)) := by
  rw [Fin.sum_univ_add, Fin.sum_univ_add, add_assoc]

/-- A sum over the 384 rows is the sum over the sender band, the receiver band and the edge band. -/
private theorem sum_bands3 {M : Type*} [AddCommMonoid M] (g : Fin 384 → M) :
    ∑ k : Fin 384, g k
      = ((∑ j : Fin 128, g (r0 j)) + ∑ j : Fin 128, g (r1 j)) + ∑ j : Fin 128, g (r2 j) := by
  have e0 : ∀ j : Fin 128, (Fin.castAdd (128 + 128) j : Fin (128 + (128 + 128))) = r0 j := fun j => Fin.ext rfl
  have e1 : ∀ j : Fin 128, (Fin.natAdd 128 (Fin.castAdd 128 j) : Fin (128 + (128 + 128))) = r1 j :=
    fun j => Fin.ext rfl
  have e2 : ∀ j : Fin 128, (Fin.natAdd 128 (Fin.natAdd 128 j) : Fin (128 + (128 + 128))) = r2 j :=
    fun j => Fin.ext (by show 128 + (128 + j.val) = 256 + j.val; omega)
  have key := sum_add3 (M := M) g
  simp only [e0, e1, e2] at key
  exact key

/-- A sum over the 256 rows is the sum over the node band and the aggregate band. -/
private theorem sum_bands2 {M : Type*} [AddCommMonoid M] (g : Fin 256 → M) :
    ∑ k : Fin 256, g k = (∑ j : Fin 128, g (u0 j)) + ∑ j : Fin 128, g (u1 j) := by
  have e0 : ∀ j : Fin 128, (Fin.castAdd 128 j : Fin (128 + 128)) = u0 j := fun j => Fin.ext rfl
  have e1 : ∀ j : Fin 128, (Fin.natAdd 128 j : Fin (128 + 128)) = u1 j := fun j => Fin.ext rfl
  have key : ∑ k : Fin (128 + 128), g k
      = (∑ j : Fin 128, g (Fin.castAdd 128 j)) + ∑ j : Fin 128, g (Fin.natAdd 128 j) := Fin.sum_univ_add _
  simp only [e0, e1] at key
  exact key

/-! ### The row an edge's receiver word looks up -/

/-- A word that is not negative when read signed is left as it is. -/
private theorem wrap_of_nonneg (x : BitVec 32) (hx : 0 ≤ x.toInt) : wrap x = x := by
  have h0 : (0#32 : BitVec 32).toInt = 0 := by decide
  have hs : x.slt 0#32 = false := by
    unfold BitVec.slt
    rw [h0]
    exact decide_eq_false (by omega)
  show (if BitVec.ofBool (x.slt 0#32) = 1 then IntOp.addi x 100000#32 else x) = x
  rw [hs]
  exact if_neg (by decide)

/-- An edge that node `n` receives looks up row `n` for its receiver: its word read signed is `n`, which is not
    negative and is below the number of rows. -/
private theorem recRow_of_mem (ei : S2E.Idx → BitVec 32) (n : Fin 100000) (e : Fin 600000)
    (he : e ∈ inbox ei n) : recRow ei e = n := by
  have hx : (ei (ix2 (1 : Fin 2) e)).toInt = (n.val : ℤ) := (Finset.mem_filter.mp he).2
  have hn := n.isLt
  unfold recRow
  rw [wrap_of_nonneg _ (by rw [hx]; omega)]
  apply Fin.ext
  show min (ei (ix2 (1 : Fin 2) e)).toInt.toNat (100000 - 1) = n.val
  rw [hx]
  omega

section
variable (h : SND.Idx → EReal) (ei : S2E.Idx → BitVec 32) (ea : SED.Idx → EReal) (Wm : S3DD.Idx → EReal)
  (bm : SD.Idx → EReal) (Wu : S2DD.Idx → EReal) (bu : SD.Idx → EReal)

/-! ### The stacked rows at their bands -/

private theorem cat3_r0 (e : Fin 600000) (j : Fin 128) :
    cat3 h ei ea e (r0 j) = h (ix2 (sendRow ei e) j) := by
  unfold cat3
  rw [dif_pos (show (r0 j).val < 128 from j.isLt)]
  exact congrArg (fun t => h (ix2 (sendRow ei e) t)) (Fin.ext rfl)

private theorem cat3_r1 (e : Fin 600000) (j : Fin 128) :
    cat3 h ei ea e (r1 j) = h (ix2 (recRow ei e) j) := by
  have hj := j.isLt
  unfold cat3
  rw [dif_neg (show ¬ (r1 j).val < 128 by show ¬ (128 + j.val < 128); omega),
    dif_pos (show (r1 j).val < 256 by show 128 + j.val < 256; omega)]
  exact congrArg (fun t => h (ix2 (recRow ei e) t))
    (Fin.ext (by show 128 + j.val - 128 = j.val; omega))

private theorem cat3_r2 (e : Fin 600000) (j : Fin 128) :
    cat3 h ei ea e (r2 j) = ea (ix2 e j) := by
  have hj := j.isLt
  unfold cat3
  rw [dif_neg (show ¬ (r2 j).val < 128 by show ¬ (256 + j.val < 128); omega),
    dif_neg (show ¬ (r2 j).val < 256 by show ¬ (256 + j.val < 256); omega)]
  exact congrArg (fun t => ea (ix2 e t)) (Fin.ext (by show 256 + j.val - 256 = j.val; omega))

private theorem cat2_u0 (n : Fin 100000) (j : Fin 128) :
    cat2 h ei ea Wm bm n (u0 j) = h (ix2 n j) := by
  unfold cat2
  rw [dif_pos (show (u0 j).val < 128 from j.isLt)]
  exact congrArg (fun t => h (ix2 n t)) (Fin.ext rfl)

private theorem cat2_u1 (n : Fin 100000) (j : Fin 128) :
    cat2 h ei ea Wm bm n (u1 j) = aggR h ei ea Wm bm n j := by
  have hj := j.isLt
  unfold cat2
  rw [dif_neg (show ¬ (u1 j).val < 128 by show ¬ (128 + j.val < 128); omega)]
  exact congrArg (fun t => aggR h ei ea Wm bm n t) (Fin.ext (by show 128 + j.val - 128 = j.val; omega))

/-- The result as first written, with the node's stacked row split into its two bands. -/
private theorem outR_bands (n : Fin 100000) (q : Fin 128) :
    outR h ei ea Wm bm Wu bu n q
      = ((∑ j : Fin 128, h (ix2 n j) * Wu (ix2 (u0 j) q))
          + ∑ j : Fin 128, aggR h ei ea Wm bm n j * Wu (ix2 (u1 j) q)) + bu (ix1 q) := by
  unfold outR
  rw [sum_bands2]
  simp only [cat2_u0, cat2_u1]

end

/-! ### The identity behind the aggregate -/

/-- Over the reals: summing `(b e + c) + a e + d` over a finite set is summing `a e + b e` and adding
    (the number of elements) times `c` and times `d`. -/
private theorem real_identity {ι : Type*} (s : Finset ι) (a b : ι → ℝ) (c d : ℝ) :
    ((0 + ∑ e ∈ s, (a e + b e)) + (0 + ∑ _e ∈ s, (1 : ℝ)) * c) + (0 + ∑ _e ∈ s, (1 : ℝ)) * d
      = 0 + ∑ e ∈ s, (((b e + c) + a e) + d) := by
  simp only [Finset.sum_add_distrib, Finset.sum_const, nsmul_eq_mul, zero_add, mul_one]
  ring

/-- The same identity between extended reals that are coercions of real numbers. -/
private theorem ereal_identity {ι : Type*} (s : Finset ι) (a b : ι → ℝ) (c d : ℝ) :
    (((0 : EReal) + ∑ e ∈ s, ((a e : EReal) + (b e : EReal))) + (0 + ∑ _e ∈ s, (1 : EReal)) * (c : EReal))
        + (0 + ∑ _e ∈ s, (1 : EReal)) * (d : EReal)
      = 0 + ∑ e ∈ s, ((((b e : EReal) + (c : EReal)) + (a e : EReal)) + (d : EReal)) := by
  have key := congrArg (fun x : ℝ => (x : EReal)) (real_identity s a b c d)
  simp only [EReal.coe_add, EReal.coe_mul, coe_sum, EReal.coe_zero, EReal.coe_one] at key
  exact key

/-- On arrays of real numbers the completed aggregate of the restructured computation is the aggregate as first
    written. -/
private theorem aggFull_eq_aggR (h : SND.Idx → EReal) (ei : S2E.Idx → BitVec 32) (ea : SED.Idx → EReal)
    (Wm : S3DD.Idx → EReal) (bm : SD.Idx → EReal)
    (h' : SND.Idx → ℝ) (ea' : SED.Idx → ℝ) (Wm' : S3DD.Idx → ℝ) (bm' : SD.Idx → ℝ)
    (hh : ∀ i, h i = (h' i : EReal)) (hea : ∀ i, ea i = (ea' i : EReal))
    (hWm : ∀ i, Wm i = (Wm' i : EReal)) (hbm : ∀ i, bm i = (bm' i : EReal))
    (n : Fin 100000) (q : Fin 128) :
    aggFull h ei ea Wm bm n q = aggR h ei ea Wm bm n q := by
  -- the projections through the three bands, as real numbers
  have hS : ∀ p : Fin 100000, (∑ j : Fin 128, h (ix2 p j) * Wm (ix2 (r0 j) q))
      = ((∑ j : Fin 128, h' (ix2 p j) * Wm' (ix2 (r0 j) q) : ℝ) : EReal) :=
    fun p => dot_eq Finset.univ h Wm h' Wm' hh hWm (fun j => ix2 p j) (fun j => ix2 (r0 j) q)
  have hP : ∀ p : Fin 100000, (∑ j : Fin 128, h (ix2 p j) * Wm (ix2 (r1 j) q))
      = ((∑ j : Fin 128, h' (ix2 p j) * Wm' (ix2 (r1 j) q) : ℝ) : EReal) :=
    fun p => dot_eq Finset.univ h Wm h' Wm' hh hWm (fun j => ix2 p j) (fun j => ix2 (r1 j) q)
  have hE : ∀ e : Fin 600000, (∑ j : Fin 128, ea (ix2 e j) * Wm (ix2 (r2 j) q))
      = ((∑ j : Fin 128, ea' (ix2 e j) * Wm' (ix2 (r2 j) q) : ℝ) : EReal) :=
    fun e => dot_eq Finset.univ ea Wm ea' Wm' hea hWm (fun j => ix2 e j) (fun j => ix2 (r2 j) q)
  -- an edge's contribution, and a received edge's message as first written
  have hK : ∀ e : Fin 600000, msgK h ei ea Wm e q
      = ((∑ j : Fin 128, ea' (ix2 e j) * Wm' (ix2 (r2 j) q) : ℝ) : EReal)
        + ((∑ j : Fin 128, h' (ix2 (sendRow ei e) j) * Wm' (ix2 (r0 j) q) : ℝ) : EReal) := by
    intro e
    unfold msgK Ps
    rw [hE, hS]
  have hR : ∀ e ∈ inbox ei n, msgR h ei ea Wm bm e q
      = (((((∑ j : Fin 128, h' (ix2 (sendRow ei e) j) * Wm' (ix2 (r0 j) q) : ℝ) : EReal)
          + ((∑ j : Fin 128, h' (ix2 n j) * Wm' (ix2 (r1 j) q) : ℝ) : EReal))
          + ((∑ j : Fin 128, ea' (ix2 e j) * Wm' (ix2 (r2 j) q) : ℝ) : EReal))
          + (bm' (ix1 q) : EReal)) := by
    intro e he
    unfold msgR
    rw [sum_bands3]
    simp only [cat3_r0, cat3_r1, cat3_r2]
    rw [recRow_of_mem ei n e he, hS, hP, hE, hbm]
  unfold aggFull aggK deg aggR Pr
  rw [Finset.sum_congr rfl hR]
  simp only [hK]
  rw [hP n, hbm (ix1 q), zero32_eq, one32_eq]
  exact ereal_identity (inbox ei n) _ _ _ _

/-- On arrays whose entries are all real numbers the restructured computation is the one first written. -/
theorem outK_eq_outR (h : SND.Idx → EReal) (ei : S2E.Idx → BitVec 32) (ea : SED.Idx → EReal) (Wm : S3DD.Idx → EReal)
    (bm : SD.Idx → EReal) (Wu : S2DD.Idx → EReal) (bu : SD.Idx → EReal)
    (hh : ∀ i, ∃ r : ℝ, h i = (r : EReal)) (hea : ∀ i, ∃ r : ℝ, ea i = (r : EReal))
    (hWm : ∀ i, ∃ r : ℝ, Wm i = (r : EReal)) (hbm : ∀ i, ∃ r : ℝ, bm i = (r : EReal))
    (hWu : ∀ i, ∃ r : ℝ, Wu i = (r : EReal)) (hbu : ∀ i, ∃ r : ℝ, bu i = (r : EReal))
    (n : Fin 100000) (q : Fin 128) :
    outK h ei ea Wm bm Wu bu n q = outR h ei ea Wm bm Wu bu n q := by
  choose h' hh' using hh
  choose ea' hea' using hea
  choose Wm' hWm' using hWm
  choose bm' hbm' using hbm
  rw [outR_bands]
  unfold outK
  simp only [aggFull_eq_aggR h ei ea Wm bm h' ea' Wm' bm' hh' hea' hWm' hbm' n]

end Cert.Spec

end
-- ==== Proof.PreDecode.lean ====
/-
  What the precondition says of the arguments: every entry of the six float arrays is a real number, and every
  sender word, read signed, lies in [-100000, 100000).
-/
import proofs.«405364_j51170240364728_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.Lib.Pipeline.Value

noncomputable section

open Idealize.ShloMosaic Idealize.ShloMosaic.ValueIdx

namespace Cert.PreDecode

open Cert.Pre_finite_inputs Cert.Pre_finite_inputs.Gen

/-- The scalar shape has exactly one index. -/
private instance scalarIdx_subsingleton : Subsingleton S_.Idx := ⟨fun a b => funext fun d => d.elim0⟩

/-- An extended real whose absolute value max(x, -x) lies strictly below +∞ is neither +∞ nor -∞: it is a real. -/
private theorem real_of_abs_lt_top (x : EReal) (h : max x (-x) < ⊤) : ∃ r : ℝ, x = (r : EReal) := by
  rw [max_lt_iff] at h
  induction x using EReal.rec with
  | bot => exact absurd h.2 (by simp)
  | coe r => exact ⟨r, rfl⟩
  | top => exact absurd h.1 (by simp)

/-- The conjunction of two one-bit arrays is 1 at an index exactly when both are. -/
private theorem andi_split {s : Shape} (x y : IVec s 1) (i : s.Idx) (h : andi x y i = 1#1) : x i = 1#1 ∧ y i = 1#1 :=
  IntOp.andi_eq_one.1 h

/-- "All entries have |x| < +∞" (the all-axes conjunction of the elementwise compare against the pattern of +∞,
    equal to 1) says that every entry is a real. -/
private theorem real_of_all {s : Shape} {axes : List (Fin s.rank)} (x : s.Idx → EReal)
    (hb : S_.BroadcastsInDim s (![] : Fin 0 → Fin s.rank)) (hr : s.ReducesTo axes S_) (hu : 0 < S_.numel)
    (h : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu ix0 = 1#1) :
    ∀ i, ∃ r : ℝ, x i = (r : EReal) := by
  intro i
  have hi := Host.reduce_andi_all _ _ hr hu ix0 h i
  have htop : Ideal.ofBits .f32 0x7F800000#32 = ⊤ := by simp [Ideal.ofBits, Ideal.ieee]
  change Ideal.cmp .olt (max (x i) (-(x i))) (Ideal.ofBits .f32 0x7F800000#32) = 1#1 at hi
  rw [htop] at hi
  unfold Ideal.cmp at hi
  rw [StableHlo.Predicate.ofBool_eq_one_iff, decide_eq_true_eq] at hi
  exact real_of_abs_lt_top _ hi

/-- The constant the lower bound is compared against, read signed, is -100000. -/
private theorem lo_toInt : (4294867296#32 : BitVec 32).toInt = -100000 := by decide

/-- The constant the upper bound is compared against, read signed, is 100000. -/
private theorem hi_toInt : (100000#32 : BitVec 32).toInt = 100000 := by decide

/-- Row 0 of the edge list, sliced out and flattened, read at e is the edge list at (0, e). -/
private theorem sender_read (a1 : S2x600000.Idx → BitVec 32) (hs : S2x600000.Slices ![0, 0] S1x600000)
    (hc : S1x600000.ShapeCasts S600000) (e : Fin 600000) :
    shapeCast S600000 (extractStridedSlice S1x600000 ![0, 0] a1 hs) hc (ix1 e) = a1 (ix2 (0 : Fin 2) e) := by
  refine (shapeCast_apply _ hc (ix1 e) (ix2 (0 : Fin 1) e) ?_).trans ?_
  · rw [Shape.rowMajor_val_two, Shape.rowMajor_val_one]
    show (0 : Nat) * 600000 + e.val = e.val
    omega
  · refine extractStridedSlice_apply _ a1 hs _ (ix2 (0 : Fin 2) e) fun a => ?_
    match a with
    | ⟨0, _⟩ => rfl
    | ⟨1, _⟩ => show e.val = 0 + e.val; omega

theorem decode (a0 : S100000x128.Idx → EReal) (a1 : S2x600000.Idx → BitVec 32) (a2 : S600000x128.Idx → EReal)
    (a3 : S384x128.Idx → EReal) (a4 : S128.Idx → EReal) (a5 : S256x128.Idx → EReal) (a6 : S128.Idx → EReal)
    (hpre : Cert.Pre_finite_inputs.fn (F := Ideal) a0 a1 a2 a3 a4 a5 a6 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ ∀ e : Fin 600000, -100000 ≤ (a1 (ix2 (0 : Fin 2) e)).toInt ∧ (a1 (ix2 (0 : Fin 2) e)).toInt < 100000 := by
  have h := congrFun hpre ix0
  dsimp only [Cert.Pre_finite_inputs.fn, Cert.Pre_finite_inputs.fn_part1, Cert.Pre_finite_inputs.fn_part2] at h
  -- the printed predicate is a left-nested conjunction of the seven scalar tests
  obtain ⟨h, hs⟩ := andi_split _ _ _ h
  obtain ⟨h, h6⟩ := andi_split _ _ _ h
  obtain ⟨h, h5⟩ := andi_split _ _ _ h
  obtain ⟨h, h4⟩ := andi_split _ _ _ h
  obtain ⟨h, h3⟩ := andi_split _ _ _ h
  obtain ⟨h0, h2⟩ := andi_split _ _ _ h
  refine ⟨real_of_all a0 _ _ _ h0, real_of_all a2 _ _ _ h2, real_of_all a3 _ _ _ h3, real_of_all a4 _ _ _ h4,
    real_of_all a5 _ _ _ h5, real_of_all a6 _ _ _ h6, fun e => ?_⟩
  -- the sender test at edge e: both word compares hold there
  obtain ⟨hge, hlt⟩ := andi_split _ _ _ (Host.reduce_andi_all _ _ _ _ ix0 hs (ix1 e))
  change IntOp.cmpi .sge (shapeCast S600000 (extractStridedSlice S1x600000 ![0, 0] a1 _) _ (ix1 e)) 4294867296#32 = 1#1 at hge
  change IntOp.cmpi .slt (shapeCast S600000 (extractStridedSlice S1x600000 ![0, 0] a1 _) _ (ix1 e)) 100000#32 = 1#1 at hlt
  rw [sender_read] at hge hlt
  unfold IntOp.cmpi at hge hlt
  rw [StableHlo.Predicate.ofBool_eq_one_iff] at hge hlt
  rw [BitVec.sle_iff_toInt_le, lo_toInt] at hge
  rw [BitVec.slt_iff_toInt_lt, hi_toInt] at hlt
  exact ⟨hge, hlt⟩

end Cert.PreDecode

end
-- ==== Proof.lean ====
/-
  The certificate of a graph message-passing layer (100000 nodes, 600000 edges, width 128): a kernel program of
  three regions — node projections through the sender and receiver bands of the message weights; per-edge
  contributions (edge band plus the projected sender row); the node update — with a host look-up and two host
  aggregations between them, against the layer as first written (stacked rows through the whole message weights,
  summed per receiving node, then the update).

  Frames: each program terminates without fault and leaves its arguments as launched (the kernel programs' by their
  generated frame certificates, the reference's by its generated run). The kernel program's idealization rewrote
  nothing, so `preserves` is trivial. `algebraic`: on finite float arguments whose sender words lie in
  [-100000, 100000) — where both programs look up the same sender row — the kernel program's result array, read back
  region by region, is the restructured formula (`Spec.outK`), the reference's is the formula as first written
  (`Spec.outR`), and the two agree over the reals: the receiver band's and the bias's share of a node's aggregate is
  the same for every edge into the node, so it is (the number of received edges) times one copy.
-/
import proofs.«405364_j51170240364728_3_alg».proof.Defs
import proofs.«405364_j51170240364728_3_alg».proof.Proof.Gen.Kernel
import proofs.«405364_j51170240364728_3_alg».proof.Proof.Gen.Kernel.Frame
import proofs.«405364_j51170240364728_3_alg».proof.Proof.Gen.KernelIdeal
import proofs.«405364_j51170240364728_3_alg».proof.Proof.Gen.KernelIdeal.Frame
import proofs.«405364_j51170240364728_3_alg».proof.Proof.Gen.ReferenceIdeal
import proofs.«405364_j51170240364728_3_alg».proof.Proof.Gen.ReferenceIdeal.Run
import proofs.«405364_j51170240364728_3_alg».proof.Proof.Gen.ReferenceIdeal.Read
import proofs.«405364_j51170240364728_3_alg».proof.Proof.Gen.Pre_finite_inputs
import proofs.«405364_j51170240364728_3_alg».proof.Proof.KRun
import proofs.«405364_j51170240364728_3_alg».proof.Proof.KValue
import proofs.«405364_j51170240364728_3_alg».proof.Proof.RefValue
import proofs.«405364_j51170240364728_3_alg».proof.Proof.Algebra
import proofs.«405364_j51170240364728_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel program's result array is the restructured formula of its arguments, the
    reference's the formula as first written of arguments that agree, and on the precondition's domain the two
    formulas are one. -/
theorem algebraic : Cert.algebraic_KernelIdeal_ReferenceIdeal := by
  intro m ρ m' ρ' hpre hagree
  refine ⟨fun c => Cert.KernelIdeal.Gen.W6 m ρ c (Proc.devRef .tc Cert.KernelIdeal.main_v22),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨h0, h2, h3, h4, h5, h6, hidx⟩ := Cert.PreDecode.decode _ _ _ _ _ _ _ (hpre c)
  rw [Cert.ReferenceIdeal.Read.val_main_v30_eq, a0, a1, a2, a3, a4, a5, a6]
  funext i
  obtain ⟨n, q, rfl⟩ : ∃ (n : Fin 100000) (q : Fin 128), i = ix2 n q := ⟨i 0, i 1, eq_ix2 i⟩
  exact (Cert.ReferenceIdeal.RefValue.ref_eq _ _ _ _ _ _ _ n q).trans
    ((Cert.Spec.outK_eq_outR _ _ _ _ _ _ _ h0 h2 h3 h4 h5 h6 n q).symm.trans
      (Cert.KernelIdeal.Hand.out_value m ρ c hidx n q).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
